-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S800000x84 : Shape := ⟨2, ![800000, 84]⟩
abbrev S88x128 : Shape := ⟨2, ![88, 128]⟩
abbrev S128 : Shape := ⟨1, ![128]⟩
abbrev S132x64 : Shape := ⟨2, ![132, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S800000x84 : S_.BroadcastsInDim S800000x84 (![] : Fin 0 → Fin S800000x84.rank)
  reducesTo_S800000x84_S_d0_1 : S800000x84.ReducesTo [0, 1] S_
  bcast_S_S88x128 : S_.BroadcastsInDim S88x128 (![] : Fin 0 → Fin S88x128.rank)
  reducesTo_S88x128_S_d0_1 : S88x128.ReducesTo [0, 1] S_
  bcast_S_S128 : S_.BroadcastsInDim S128 (![] : Fin 0 → Fin S128.rank)
  reducesTo_S128_S_d0 : S128.ReducesTo [0] S_
  bcast_S_S132x64 : S_.BroadcastsInDim S132x64 (![] : Fin 0 → Fin S132x64.rank)
  reducesTo_S132x64_S_d0_1 : S132x64.ReducesTo [0, 1] S_
  bcast_S_S64 : S_.BroadcastsInDim S64 (![] : Fin 0 → Fin S64.rank)
  reducesTo_S64_S_d0 : S64.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : IVec S1x800000 32 := (extractStridedSlice S1x800000 ![1, 0] · slices_S2x800000_S1x800000_1_0) main_arg1
  let main_v40 : IVec S800000 32 := shapeCast S800000 main_v39 shapeCasts_S1x800000_S800000
  let main_c_14 : IVec S_ 32 := constantI S_ 32 4294917296#32
  let main_v41 : IVec S800000 32 := broadcastInDim S800000 ![] bcast_S_S800000 main_c_14
  let main_v42 : IVec S800000 1 := cmpi .sge main_v40 main_v41
  let main_v43 : IVec S1x800000 32 := (extractStridedSlice S1x800000 ![1, 0] · slices_S2x800000_S1x800000_1_0) main_arg1
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg1 : IVec S2x800000 32) (main_arg5 : FVec F S128 .f32) (main_arg6 : FVec F S128 .f32) (main_arg7 : FVec F S132x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S132x64 .f32 := Host.absf main_arg7
  let main_cst_10 : FVec F S_ .f32 := constant S_ .f32 0x7F800000#32
  let main_v30 : FVec F S132x64 .f32 := broadcastInDim S132x64 ![] bcast_S_S132x64 main_cst_10
  let main_v31 : IVec S132x64 1 := cmpf .olt main_v29 main_v30
  let main_c_11 : IVec S_ 1 := constantI S_ 1 1#1
  let main_v32 : IVec S_ 1 := (fun x v => Host.reduce IntOp.andi x v reducesTo_S132x64_S_d0_1 h_S_) main_v31 main_c_11
  let main_v33 : IVec S_ 1 := andi main_v28 main_v32
  fn_part2 (F := F) main_arg1 main_arg8 main_v33

def fn {F : FTy → Type} [FloatOps F] (main_arg0 : FVec F S50000x4 .f32) (main_arg1 : IVec S2x800000 32) (main_arg2 : FVec F S800000x84 .f32) (main_arg3 : FVec F S88x128 .f32) (main_arg4 : FVec F S128 .f32) (main_arg5 : FVec F S128 .f32) (main_arg6 : FVec F S128 .f32) (main_arg7 : FVec F S132x64 .f32) (main_arg8 : FVec F S64 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S800000x84 .f32 := Host.absf main_arg2
  let main_cst_0 : FVec F S_ .f32 := constant S_ .f32 0x7F800000#32
  let main_v5 : FVec F S800000x84 .f32 := broadcastInDim S800000x84 ![] bcast_S_S800000x84 main_cst_0
  let main_v6 : IVec S800000x84 1 := cmpf .olt main_v4 main_v5
  let main_c_1 : IVec S_ 1 := constantI S_ 1 1#1
  let main_v7 : IVec S_ 1 := (fun x v => Host.reduce IntOp.andi x v reducesTo_S800000x84_S_d0_1 h_S_) main_v6 main_c_1
  let main_v8 : IVec S_ 1 := andi main_v3 main_v7
  let main_v9 : FVec F S88x128 .f32 := Host.absf main_arg3
  let main_cst_2 : FVec F S_ .f32 := constant S_ .f32 0x7F800000#32
  let main_v10 : FVec F S88x128 .f32 := broadcastInDim S88x128 ![] bcast_S_S88x128 main_cst_2
  let main_v11 : IVec S88x128 1 := cmpf .olt main_v9 main_v10
  let main_c_3 : IVec S_ 1 := constantI S_ 1 1#1
  let main_v12 : IVec S_ 1 := (fun x v => Host.reduce IntOp.andi x v reducesTo_S88x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S50000x4 : Shape := ⟨2, ![50000, 4]⟩
abbrev S2x800000 : Shape := ⟨2, ![2, 800000]⟩
abbrev S800000x84 : Shape := ⟨2, ![800000, 84]⟩
abbrev S88x128 : Shape := ⟨2, ![88, 128]⟩
abbrev S128 : Shape := ⟨1, ![128]⟩
abbrev S132x64 : Shape := ⟨2, ![132, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x4 : Shape := ⟨2, ![800000, 4]⟩
abbrev S1x128 : Shape := ⟨2, ![1, 128]⟩
abbrev S800000x128 : Shape := ⟨2, ![800000, 128]⟩
abbrev S16000x4 : Shape := ⟨2, ![16000, 4]⟩
abbrev S16000x84 : Shape := ⟨2, ![16000, 84]⟩
abbrev S16000x128 : Shape := ⟨2, ![16000, 128]⟩
abbrev S16000x88 : Shape := ⟨2, ![16000, 88]⟩
abbrev S50000x128 : Shape := ⟨2, ![50000, 128]⟩
abbrev S50000 : Shape := ⟨1, ![50000]⟩
abbrev S50000x1 : Shape := ⟨2, ![50000, 1]⟩
abbrev S1x64 : Shape := ⟨2, ![1, 64]⟩
abbrev S50000x64 : Shape := ⟨2, ![50000, 64]⟩
abbrev S10000x4 : Shape := ⟨2, ![10000, 4]⟩
abbrev S10000x128 : Shape := ⟨2, ![10000, 128]⟩
abbrev S10000x64 : Shape := ⟨2, ![10000, 64]⟩
abbrev S10000x132 : Shape := ⟨2, ![10000, 132]⟩

abbrev nBuf : Space → Nat
  | .hbm => 79
  | .vmem => 24
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S800000x84, .f32⟩
  | .hbm, ⟨3, _⟩ => ⟨S88x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S132x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x4, .f32⟩
  | .hbm, ⟨32, _⟩ => ⟨S800000x4, .i1⟩
  | .hbm, ⟨33, _⟩ => ⟨S_, .f32⟩
  | .hbm, ⟨34, _⟩ => ⟨S800000x4, .f32⟩
  | .hbm, ⟨35, _⟩ => ⟨S800000x4, .f32⟩
  | .hbm, ⟨36, _⟩ => ⟨S1x128, .f32⟩
  | .hbm, ⟨37, _⟩ => ⟨S800000x128, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S1x64, .f32⟩
  | .hbm, ⟨78, _⟩ => ⟨S50000x64, .f32⟩
  | .local _ .vmem, ⟨0, _⟩ => ⟨S16000x4, .f32⟩
  | .local _ .vmem, ⟨1, _⟩ => ⟨S16000x4, .f32⟩
  | .local _ .vmem, ⟨2, _⟩ => ⟨S16000x84, .f32⟩
  | .local _ .vmem, ⟨3, _⟩ => ⟨S16000x84, .f32⟩
  | .local _ .vmem, ⟨4, _⟩ => ⟨S88x128, .f32⟩
  | .local _ .vmem, ⟨5, _⟩ => ⟨S1x128, .f32⟩
  | .local _ .vmem, ⟨6, _⟩ => ⟨S16000x128, .f32⟩
  | .local _ .vmem, ⟨7, _⟩ => ⟨S16000x128, .f32⟩
  | .local _ .vmem, ⟨8, _⟩ => ⟨S1x128, .f32⟩
  | .local _ .vmem, ⟨9, _⟩ => ⟨S1x128, .f32⟩
  | .local _ .vmem, ⟨10, _⟩ => ⟨S16000x128, .f32⟩
  | .local _ .vmem, ⟨11, _⟩ => ⟨S16000x128, .f32⟩
  | .local _ .vmem, ⟨12, _⟩ => ⟨S1x128, .f32⟩
  | .local _ .vmem, ⟨13, _⟩ => ⟨S1x128, .f32⟩
  | .local _ .vmem, ⟨14, _⟩ => ⟨S16000x128, .f32⟩
  | .local _ .vmem, ⟨15, _⟩ => ⟨S16000x128, .f32⟩
  | .local _ .vmem, ⟨16, _⟩ => ⟨S10000x4, .f32⟩
  | .local _ .vmem, ⟨17, _⟩ => ⟨S10000x4, .f32⟩
  | .local _ .vmem, ⟨18, _⟩ => ⟨S10000x128, .f32⟩
  | .local _ .vmem, ⟨19, _⟩ => ⟨S10000x128, .f32⟩
  | .local _ .vmem, ⟨20, _⟩ => ⟨S132x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_v6_0 : Ref sig .tc := ⟨.hbm, 37, rfl⟩
abbrev main_v6_1 : Ref sig .tc := ⟨.hbm, 38, rfl⟩
abbrev main_v6_2 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_0 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_2 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_call1_v0 : Ref sig .tc := ⟨.hbm, 71, rfl⟩
abbrev main_call1_v1 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x84 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S132x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x4_0 : S800000.BroadcastsInDim S800000x4 (![0] : Fin 1 → Fin S800000x4.rank)
  bcast_S_S800000x4 : S_.BroadcastsInDim S800000x4 (![] : Fin 0 → Fin S800000x4.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S16000x4_S16000x4_0_0 : ∀ a, (![0, 0] : Fin 2 → Nat) a + S16000x4.size a ≤ S16000x4.size a
  h_S16000x4 : 0 < S16000x4.numel
  shapeCasts_S16000x4_S16000x4 : S16000x4.ShapeCasts S16000x4
  inb_S16000x84_S16000x84_0_0 : ∀ a, (![0, 0] : Fin 2 → Nat) a + S16000x84.size a ≤ S16000x84.size a
  h_S16000x84 : 0 < S16000x84.numel
  concatenates_S16000x4_S16000x84_S16000x88_d1 : Shape.Concatenates [S16000x4, S16000x84] S16000x88 1
  inb_S88x128_S88x128_0_0 : ∀ a, (![0, 0] : Fin 2 → Nat) a + S88x128.size a ≤ S88x128.size a
  h_S88x128 : 0 < S88x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  reduces_S16000x128_S128 : S16000x128.Reduces [0] S128
  bcast_S_S1x128 : S_.BroadcastsInDim S1x128 (![] : Fin 0 → Fin S1x128.rank)
  shapeCasts_S1x128_S128 : S1x128.ShapeCasts S128
  bcast_S_S128 : S_.BroadcastsInDim S128 (![] : Fin 0 → Fin S128.rank)
  shapeCasts_S16000x128_S16000x128 : S16000x128.ShapeCasts S16000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  inb_S10000x4_S10000x4_0_0 : ∀ a, (![0, 0] : Fin 2 → Nat) a + S10000x4.size a ≤ S10000x4.size a
  h_S10000x4 : 0 < S10000x4.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x4_S10000x128_S10000x132_d1 : Shape.Concatenates [S10000x4, S10000x128] S10000x132 1
  inb_S132x64_S132x64_0_0 : ∀ a, (![0, 0] : Fin 2 → Nat) a + S132x64.size a ≤ S132x64.size a
  h_S132x64 : 0 < S132x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x4_S800000x1_S800000x4_1_0_n_n_0_1_14_wf : GatherDims.WF S50000x4 S800000x1 S800000x4 [1] [0] [] [0] [] 1 ![1, 4]
  dot_S16000x88_S88x128_S16000x128_1_0_0_1_n_n_wf : DotDims.WF S16000x88 S88x128 S16000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S10000x132_S132x64_S10000x64_1_0_0_1_n_n_wf : DotDims.WF S10000x132 S132x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x4.size a ≤ S800000x4.size a
  hwx0_0 : ∀ i : grid0.Coords, EltTy.bits .f32 = 32 ∨ (Rect.block (s := S800000x4) S16000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x84.size a ≤ S800000x84.size a
  hwx0_1 : ∀ i : grid0.Coords, EltTy.bits .f32 = 32 ∨ (Rect.block (s := S800000x84) S16000x84.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S88x128.size a ≤ S88x128.size a
  hwx0_2 : ∀ i : grid0.Coords, EltTy.bits .f32 = 32 ∨ (Rect.block (s := S88x128) S88x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x128.size a ≤ S800000x128.size a
  hwx0_4 : ∀ i : grid0.Coords, EltTy.bits .f32 = 32 ∨ (Rect.block (s := S800000x128) S16000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S800000x128.size a
  hwx1_0 : ∀ i : grid1.Coords, EltTy.bits .f32 = 32 ∨ (Rect.block (s := S800000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x128.size a ≤ S800000x128.size a
  hwx1_3 : ∀ i : grid1.Coords, EltTy.bits .f32 = 32 ∨ (Rect.block (s := S800000x128) S16000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S50000x4.size a
  hwx2_0 : ∀ i : grid2.Coords, EltTy.bits .f32 = 32 ∨ (Rect.block (s := S50000x4) S10000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S132x64.size a ≤ S132x64.size a
  hwx2_2 : ∀ i : grid2.Coords, EltTy.bits .f32 = 32 ∨ (Rect.block (s := S132x64) S132x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)

variable [Facts₀]

def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def dot_S16000x88_S88x128_S16000x128_1_0_0_1_n_n : DotDims S16000x88 S88x128 S16000x128 where
  lhsContracting := [1]
  rhsContracting := [0]
  lhsNonContracting := [0]
  rhsNonContracting := [1]
  lhsBatch := []
  rhsBatch := []
  wf := dot_S16000x88_S88x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x132_S132x64_S10000x64_1_0_0_1_n_n : DotDims S10000x132 S132x64 S10000x64 where
  lhsContracting := [1]
  rhsContracting := [0]
  lhsNonContracting := [0]
  rhsNonContracting := [1]
  lhsBatch := []
  rhsBatch := []
  wf := dot_S10000x132_S132x64_S10000x64_1_0_0_1_n_n_wf

abbrev win0_0 : Pipeline.Window sig grid0 :=
  Pipeline.Window.ofSpec (Memref.whole main_v4) S16000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x84.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S88x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S16000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S16000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S132x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S800000x84 : Shape := ⟨2, ![800000, 84]⟩
abbrev S88x128 : Shape := ⟨2, ![88, 128]⟩
abbrev S128 : Shape := ⟨1, ![128]⟩
abbrev S132x64 : Shape := ⟨2, ![132, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x4 : Shape := ⟨2, ![800000, 4]⟩
abbrev S800000x88 : Shape := ⟨2, ![800000, 88]⟩
abbrev S800000x128 : Shape := ⟨2, ![800000, 128]⟩
abbrev S1x128 : Shape := ⟨2, ![1, 128]⟩
abbrev S50000x128 : Shape := ⟨2, ![50000, 128]⟩
abbrev S50000 : Shape := ⟨1, ![50000]⟩
abbrev S50000x1 : Shape := ⟨2, ![50000, 1]⟩
abbrev S50000x132 : Shape := ⟨2, ![50000, 132]⟩
abbrev S50000x64 : Shape := ⟨2, ![50000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S800000x84, .f32⟩
  | .hbm, ⟨3, _⟩ => ⟨S88x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S132x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x4, .f32⟩
  | .hbm, ⟨22, _⟩ => ⟨S800000x88, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S1x128, .f32⟩
  | .hbm, ⟨52, _⟩ => ⟨S800000x128, .f32⟩
  | .hbm, ⟨53, _⟩ => ⟨S800000x128, .f32⟩
  | .hbm, ⟨54, _⟩ => ⟨S1x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x132, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x4_S800000x84_S800000x88_d1 : Shape.Concatenates [S800000x4, S800000x84] S800000x88 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x4_S50000x128_S50000x132_d1 : Shape.Concatenates [S50000x4, S50000x128] S50000x132 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x4_S800000x1_S800000x4_1_0_n_n_0_1_14_wf : GatherDims.WF S50000x4 S800000x1 S800000x4 [1] [0] [] [0] [] 1 ![1, 4]
  dot_S800000x88_S88x128_S800000x128_1_0_0_1_n_n_wf : DotDims.WF S800000x88 S88x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x132_S132x64_S50000x64_1_0_0_1_n_n_wf : DotDims.WF S50000x132 S132x64 S50000x64 [1] [0] [0] [1] [] []

variable [Facts₀]

def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def dot_S800000x88_S88x128_S800000x128_1_0_0_1_n_n : DotDims S800000x88 S88x128 S800000x128 where
  lhsContracting := [1]
  rhsContracting := [0]
  lhsNonContracting := [0]
  rhsNonContracting := [1]
  lhsBatch := []
  rhsBatch := []
  wf := dot_S800000x88_S88x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x132_S132x64_S50000x64_1_0_0_1_n_n : DotDims S50000x132 S132x64 S50000x64 where
  lhsContracting := [1]
  rhsContracting := [0]
  lhsNonContracting := [0]
  rhsNonContracting := [1]
  lhsBatch := []
  rhsBatch := []
  wf := dot_S50000x132_S132x64_S50000x64_1_0_0_1_n_n_wf

class Facts : Prop extends Facts₀ where

variable [Facts]
-- ==== Proof.KTerms.lean ====
/-
  The host-side terms of the kernel's program, named.

  Between its three grid regions the kernel's program computes on the host: the column and row index vectors cut from
  the edge index array; the rows of the node table taken at the column indices (wrapped below zero, tested against the
  table's extent, filled where the test fails); from the two column sums the first region leaves, the per-feature scale
  and shift of the batch normalisation; and the scatter-mean of the normalised edge rows onto their row nodes (the
  scattered sum over the scattered count, the count at least one). Each is named here as the function of its inputs
  that the program's operations compose, so that the rest of the proof can speak of them without their text.
-/
import proofs.«400937_j23630910063281_1_alg».proof.KernelIdeal
import proofs.«400937_j23630910063281_1_alg».proof.Proof.Gen.KernelIdeal

set_option maxRecDepth 16384

noncomputable section

namespace Cert.KernelIdeal.KTerms

open Cert.KernelIdeal Idealize.ShloMosaic
open Facts₀ Facts

variable {F : FTy → Type} [FloatOps F]

/-- Row 1 of the edge index array, as a vector: the node each edge reads. -/
def col (a1 : IVec S2x800000 32) : IVec S800000 32 :=
  shapeCast S800000 (extractStridedSlice S1x800000 ![1, 0] a1 slices_S2x800000_S1x800000_1_0) shapeCasts_S1x800000_S800000

/-- Row 0 of the edge index array, as a vector: the node each edge adds into. -/
def row (a1 : IVec S2x800000 32) : IVec S800000 32 :=
  shapeCast S800000 (extractStridedSlice S1x800000 ![0, 0] a1 slices_S2x800000_S1x800000_0_0) shapeCasts_S1x800000_S800000

/-- The wrapped column indices, as a column: an index below zero has 50000 added. -/
def wrapped (a1 : IVec S2x800000 32) : IVec S800000x1 32 :=
  broadcastInDim S800000x1 ![0] bcast_S800000_S800000x1_0
    (select (cmpi .slt (col a1) (broadcastInDim S800000 ![] bcast_S_S800000 (constantI S_ 32 0#32)))
      (addi (col a1) (broadcastInDim S800000 ![] bcast_S_S800000 (constantI S_ 32 50000#32))) (col a1))

/-- The plain gather of node rows at the wrapped indices (what the reference computes). -/
def gathered (a0 : FVec F S50000x4 .f32) (a1 : IVec S2x800000 32) : FVec F S800000x4 .f32 :=
  Host.gather gather_S50000x4_S800000x1_S800000x4_1_0_n_n_0_1_14 a0 (wrapped a1)

/-- The per-edge test "the wrapped index is a row of the table". -/
def inRange (a1 : IVec S2x800000 32) : IVec S800000 1 :=
  Host.reduce IntOp.andi
    (andi (cmpi .sge (wrapped a1) (broadcastInDim S800000x1 ![] bcast_S_S800000x1 (constantI S_ 32 0#32)))
      (cmpi .sle (wrapped a1) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel program's take: the gather, with the rows that fail the test filled. -/
def taken (a0 : FVec F S50000x4 .f32) (a1 : IVec S2x800000 32) : FVec F S800000x4 .f32 :=
  select (broadcastInDim S800000x4 ![0] bcast_S800000_S800000x4_0 (inRange a1)) (gathered a0 a1)
    (broadcastInDim S800000x4 ![] bcast_S_S800000x4 (constant S_ .f32 0x7FC00000#32))

/-- The per-feature mean: the column sums over the number of edges, as a vector. -/
def meanVec (s : FVec F S1x128 .f32) : FVec F S128 .f32 :=
  shapeCast S128 (Host.divf s (broadcastInDim S1x128 ![] bcast_S_S1x128 (constant S_ .f32 0x49435000#32))) shapeCasts_S1x128_S128

/-- The per-feature scale: gamma times the inverse square root of (mean of squares - squared mean + eps). -/
def scaleVec (s ss : FVec F S1x128 .f32) (g : FVec F S128 .f32) : FVec F S128 .f32 :=
  mulf g (Host.rsqrt (addf (subf (shapeCast S128 (Host.divf ss (broadcastInDim S1x128 ![] bcast_S_S1x128 (constant S_ .f32 0x49435000#32))) shapeCasts_S1x128_S128)
    (mulf (meanVec s) (meanVec s))) (broadcastInDim S128 ![] bcast_S_S128 (constant S_ .f32 0x3727C5AC#32))))

/-- The per-feature scale as the one-row array the second region reads. -/
def scaleArr (s ss : FVec F S1x128 .f32) (g : FVec F S128 .f32) : FVec F S1x128 .f32 :=
  shapeCast S1x128 (scaleVec s ss g) shapeCasts_S128_S1x128

/-- The per-feature shift, beta - mean * scale, as the one-row array the second region reads. -/
def shiftArr (s ss : FVec F S1x128 .f32) (g b : FVec F S128 .f32) : FVec F S1x128 .f32 :=
  shapeCast S1x128 (subf b (mulf (meanVec s) (scaleVec s ss g))) shapeCasts_S128_S1x128

/-- The scatter-mean of edge rows onto their row nodes: the scattered sum over the scattered count, the count at least one. -/
def agg (hn : FVec F S800000x128 .f32) (a1 : IVec S2x800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (row a1)) hn)
    (broadcastInDim S50000x128 ![0, 1] bcast_S50000x1_S50000x128_0_1
      (broadcastInDim S50000x1 ![0] bcast_S50000_S50000x1_0
        (maximumf (broadcastInDim S50000 ![] bcast_S_S50000 (id (constant S_ .f32 0x3F800000#32)))
          (Host.scatterAdd scatter_S50000_S800000x1_S800000_n_0_0_1
            (broadcastInDim S50000 ![] bcast_S_S50000 (constant S_ .f32 0x00000000#32))
            (broadcastInDim S800000x1 ![0] bcast_S800000_S800000x1_0 (row a1))
            (broadcastInDim S800000 ![] bcast_S_S800000 (constant S_ .f32 0x3F800000#32))))))

end Cert.KernelIdeal.KTerms

end
-- ==== Proof.KChain.lean ====
/-
  The buffer contents at the first region's entry, read back to the launch memory.

  The program opens with three stretches of host operations: the two index vectors cut from the edge index array,
  the take of node rows at the column indices, and the first bias laid out as one row. The contents of every buffer
  at the first region's entry is a fold through those stretches from the launch memory. Read at the buffers the
  region takes: it enters with the taken node rows, the edge attributes, the first weights and the first bias as one
  row. No operation writes an argument array, so each is read back to the launch memory.
-/
import proofs.«400937_j23630910063281_1_alg».proof.Proof.Gen.KernelIdeal.Frame
import proofs.«400937_j23630910063281_1_alg».proof.Proof.KTerms
import Idealize.ShloMosaic.PureOps.Ideal
import Idealize.ShloMosaic.Lib.StableHlo.Run
import Idealize.ShloMosaic.Lib.Tactic

set_option maxRecDepth 16384

noncomputable section

namespace Cert.KernelIdeal.Chain

open Cert.KernelIdeal Cert.KernelIdeal.Gen Cert.KernelIdeal.KTerms Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## A stretch leaves alone what it does not write -/

/-- A stretch of operations leaves alone every buffer that none of them writes: each operation writes one buffer,
    and the buffer asked about differs from each of those. -/
macro "stretch_keeps" ops:ident hb:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne ($hb _ (by decide)))))

/-- The first stretch writes the two slices of the edge index array and their two vectors, nothing else. -/
theorem keep0 (b : Ref sig .tc) (hb : ∀ y ∈ [main_v0, main_v1, main_v2, main_v3], b ≠ y) :
    W1 m ρ c (Proc.devRef .tc b) = W0 m ρ c (Proc.devRef .tc b) := by
  stretch_keeps hostOps0 hb

/-- The take writes its own twenty-two intermediate values and the taken rows, nothing else. -/
theorem keep0_1 (b : Ref sig .tc) (hb : ∀ y ∈ [main_call0_c, main_call0_v0, main_call0_v1, main_call0_c_0, main_call0_v2,
      main_call0_v3, main_call0_v4, main_call0_v5, main_call0_c_1, main_call0_c_2, main_call0_v6, main_call0_v7, main_call0_v8,
      main_call0_v9, main_call0_v10, main_call0_v11, main_call0_c_3, main_call0_v12, main_call0_v13, main_call0_v14,
      main_call0_cst, main_call0_v15, main_v4], b ≠ y) :
    W2 m ρ c (Proc.devRef .tc b) = W1 m ρ c (Proc.devRef .tc b) := by
  stretch_keeps hostOps0_1 hb

/-- The third stretch writes the one-row bias, nothing else. -/
theorem keep0_2 (b : Ref sig .tc) (hb : ∀ y ∈ [main_v5], b ≠ y) :
    W3 m ρ c (Proc.devRef .tc b) = W2 m ρ c (Proc.devRef .tc b) := by
  stretch_keeps hostOps0_2 hb

/-! ## The first region's entry -/

/-- After the first stretch the column-index buffer holds row 1 of the edge index array, as a vector. -/
theorem w1_v3 : (W1 m ρ c (Proc.devRef .tc main_v3) : S800000.Idx → BitVec 32) = col (m ((c.tc : Thread nD τ).loc main_arg1)) := by
  show StableHlo.after hostOps0 (W0 m ρ c) (Proc.devRef .tc main_v3) = _
  after_results
  rfl

/-- A transport along an equation of types and back along its converse is the identity. -/
theorem cast_cast_self {α β : Type} (h : α = β) (h' : β = α) (v : α) : cast h' (cast h v) = v := by
  subst h; rfl

/-- The taken rows: the third stretch does not write them; the take composes to the gather at the wrapped column
    indices, filled where the range test fails, over the node table (as launched: the first stretch does not write
    it) and the column indices the first stretch left. Each intermediate value is stored at its buffer's own type and
    read back at the value's type: the two transports cancel; what is left on both sides is the same composition. -/
theorem v3_v4 : (V3 m ρ c main_v4 : S800000x4.Idx → EReal)
    = taken (F := Ideal) (m ((c.tc : Thread nD τ).loc main_arg0)) (m ((c.tc : Thread nD τ).loc main_arg1)) := by
  have h3 := w1_v3 m ρ c
  have h0 : W1 m ρ c (Proc.devRef .tc main_arg0) = m ((c.tc : Thread nD τ).loc main_arg0) := keep0 m ρ c main_arg0 (by decide)
  show W3 m ρ c (Proc.devRef .tc main_v4) = _
  rw [keep0_2 m ρ c main_v4 (by decide)]
  show StableHlo.after hostOps0_1 (W1 m ρ c) (Proc.devRef .tc main_v4) = _
  generalize W1 m ρ c = V1 at h3 h0 ⊢
  have h3' : (StableHlo.TRef.of main_v3 : StableHlo.TRef sig ⟨S800000, .i32⟩).ofBuf (V1 (Proc.devRef .tc main_v3))
      = col (m ((c.tc : Thread nD τ).loc main_arg1)) := h3
  have h0' : (StableHlo.TRef.of main_arg0 : StableHlo.TRef sig ⟨S50000x4, .f32⟩).ofBuf (V1 (Proc.devRef .tc main_arg0))
      = m ((c.tc : Thread nD τ).loc main_arg0) := h0
  after_results_simp
  simp only [cast_cast_self]
  refine cast_eq_iff_heq.mpr (heq_of_eq ?_)
  rw [h3', h0']
  unfold taken inRange gathered wrapped
  with_reducible rfl

/-- The edge attributes: no stretch writes them. -/
theorem v3_arg2 : V3 m ρ c main_arg2 = m ((c.tc : Thread nD τ).loc main_arg2) :=
  (keep0_2 m ρ c main_arg2 (by decide)).trans ((keep0_1 m ρ c main_arg2 (by decide)).trans (keep0 m ρ c main_arg2 (by decide)))

/-- The first weights: no stretch writes them. -/
theorem v3_arg3 : V3 m ρ c main_arg3 = m ((c.tc : Thread nD τ).loc main_arg3) :=
  (keep0_2 m ρ c main_arg3 (by decide)).trans ((keep0_1 m ρ c main_arg3 (by decide)).trans (keep0 m ρ c main_arg3 (by decide)))

/-- The first bias as one row: the third stretch's one operation lays the bias vector out as a row, and the bias
    vector is as launched (neither earlier stretch writes it). -/
theorem v3_v5 : (V3 m ρ c main_v5 : S1x128.Idx → EReal)
    = shapeCast S1x128 (m ((c.tc : Thread nD τ).loc main_arg4)) Facts₀.shapeCasts_S128_S1x128 := by
  show StableHlo.after hostOps0_2 (W2 m ρ c) (Proc.devRef .tc main_v5) = _
  after_results
  rfl

end Cert.KernelIdeal.Chain

end
-- ==== Proof.KChainB.lean ====
/-
  The buffer contents at the second and third regions' entries and at the program's end, read back.

  A stretch of host operations changes only the buffers its operations write; a region changes only its windows'
  arrays. So a buffer is read at a boundary by walking back to the segment that wrote it: an argument array all the way to
  the launch memory; the row index vector to the first stretch; a region's output to that region's final array. The
  second region enters with the first region's first output and with the scale and shift rows the middle stretch
  computes from the first region's two sum rows and the two normalisation parameters; the third region enters with the
  node table, the scatter-mean of the second region's output by the row indices, the second weights and the second bias
  as one row; the program's result is the third region's output.
-/
import proofs.«400937_j23630910063281_1_alg».proof.Proof.Gen.KernelIdeal.Frame
import proofs.«400937_j23630910063281_1_alg».proof.Proof.KTerms
import Idealize.ShloMosaic.PureOps.Ideal
import Idealize.ShloMosaic.Lib.StableHlo.Run
import Idealize.ShloMosaic.Lib.Tactic

set_option maxRecDepth 16384

noncomputable section

namespace Cert.KernelIdeal.Chain

open Cert.KernelIdeal Cert.KernelIdeal.Gen Cert.KernelIdeal.KTerms Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- No operation of the named stretch writes the buffer: each operation's written buffer differs from it. -/
macro "untouched" ops:ident hb:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne ($hb _ (by decide)))))

/-- The stretch `hostOps0` leaves alone every buffer it does not write. -/
theorem skip_hostOps0 (b : Ref sig .tc) (hb : ∀ y ∈ [main_v0, main_v1, main_v2, main_v3], b ≠ y) :
    W1 m ρ c (Proc.devRef .tc b) = W0 m ρ c (Proc.devRef .tc b) := by
  untouched hostOps0 hb

/-- The stretch `hostOps0_1` leaves alone every buffer it does not write. -/
theorem skip_hostOps0_1 (b : Ref sig .tc) (hb : ∀ y ∈ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4], b ≠ y) :
    W2 m ρ c (Proc.devRef .tc b) = W1 m ρ c (Proc.devRef .tc b) := by
  untouched hostOps0_1 hb

/-- The stretch `hostOps0_2` leaves alone every buffer it does not write. -/
theorem skip_hostOps0_2 (b : Ref sig .tc) (hb : ∀ y ∈ [main_v5], b ≠ y) :
    W3 m ρ c (Proc.devRef .tc b) = W2 m ρ c (Proc.devRef .tc b) := by
  untouched hostOps0_2 hb

/-- The stretch `hostOps1` leaves alone every buffer it does not write. -/
theorem skip_hostOps1 (b : Ref sig .tc) (hb : ∀ y ∈ [main_cst, main_v7, main_v8, main_v9, main_cst_0, main_v10, main_v11, main_v12, main_v13, main_v14, main_cst_1, main_v15, main_v16, main_v17, main_v18, main_v19, main_v20, main_v21, main_v22], b ≠ y) :
    W5 m ρ c (Proc.devRef .tc b) = W4 m ρ c (Proc.devRef .tc b) := by
  untouched hostOps1 hb

/-- The stretch `hostOps2` leaves alone every buffer it does not write. -/
theorem skip_hostOps2 (b : Ref sig .tc) (hb : ∀ y ∈ [main_cst_2, main_v24, main_v25, main_v26, main_cst_3, main_v27, main_cst_4, main_v28, main_v29, main_v30, main_cst_5], b ≠ y) :
    W7 m ρ c (Proc.devRef .tc b) = W6 m ρ c (Proc.devRef .tc b) := by
  untouched hostOps2 hb

/-- The stretch `hostOps2_1` leaves alone every buffer it does not write. -/
theorem skip_hostOps2_1 (b : Ref sig .tc) (hb : ∀ y ∈ [main_call1_v0, main_call1_v1, main_v31], b ≠ y) :
    W8 m ρ c (Proc.devRef .tc b) = W7 m ρ c (Proc.devRef .tc b) := by
  untouched hostOps2_1 hb

/-- The stretch `hostOps2_2` leaves alone every buffer it does not write. -/
theorem skip_hostOps2_2 (b : Ref sig .tc) (hb : ∀ y ∈ [main_v32, main_v33, main_v34, main_v35], b ≠ y) :
    W9 m ρ c (Proc.devRef .tc b) = W8 m ρ c (Proc.devRef .tc b) := by
  untouched hostOps2_2 hb

/-- An argument array none of the opening stretches writes holds its launch contents at the first region's entry. -/
theorem w3_launch (b : Ref sig .tc)
    (h0 : ∀ y ∈ [main_v0, main_v1, main_v2, main_v3], b ≠ y)
    (h1 : ∀ y ∈ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4], b ≠ y)
    (h2 : ∀ y ∈ [main_v5], b ≠ y) :
    W3 m ρ c (Proc.devRef .tc b) = m ((c.tc : Thread nD τ).loc b) :=
  (skip_hostOps0_2 m ρ c b h2).trans ((skip_hostOps0_1 m ρ c b h1).trans ((skip_hostOps0 m ρ c b h0).trans rfl))

/-- … and at the second region's entry, when it is no array of the first region and the middle stretch does not write it. -/
theorem w5_launch (b : Ref sig .tc)
    (h0 : ∀ y ∈ [main_v0, main_v1, main_v2, main_v3], b ≠ y)
    (h1 : ∀ y ∈ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4], b ≠ y)
    (h2 : ∀ y ∈ [main_v5], b ≠ y)
    (hr : ∀ w, Pipeline.arrRef spec0 w ≠ b)
    (h3 : ∀ y ∈ [main_cst, main_v7, main_v8, main_v9, main_cst_0, main_v10, main_v11, main_v12, main_v13, main_v14, main_cst_1, main_v15, main_v16, main_v17, main_v18, main_v19, main_v20, main_v21, main_v22], b ≠ y) :
    W5 m ρ c (Proc.devRef .tc b) = m ((c.tc : Thread nD τ).loc b) :=
  (skip_hostOps1 m ρ c b h3).trans ((W4_of_ne m ρ c b hr).trans (w3_launch m ρ c b h0 h1 h2))

/-- … and at the third region's entry likewise. -/
theorem w9_launch (b : Ref sig .tc)
    (h0 : ∀ y ∈ [main_v0, main_v1, main_v2, main_v3], b ≠ y)
    (h1 : ∀ y ∈ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4], b ≠ y)
    (h2 : ∀ y ∈ [main_v5], b ≠ y)
    (hr : ∀ w, Pipeline.arrRef spec0 w ≠ b)
    (h3 : ∀ y ∈ [main_cst, main_v7, main_v8, main_v9, main_cst_0, main_v10, main_v11, main_v12, main_v13, main_v14, main_cst_1, main_v15, main_v16, main_v17, main_v18, main_v19, main_v20, main_v21, main_v22], b ≠ y)
    (hr1 : ∀ w, Pipeline.arrRef spec1 w ≠ b)
    (h4 : ∀ y ∈ [main_cst_2, main_v24, main_v25, main_v26, main_cst_3, main_v27, main_cst_4, main_v28, main_v29, main_v30, main_cst_5], b ≠ y)
    (h5 : ∀ y ∈ [main_call1_v0, main_call1_v1, main_v31], b ≠ y)
    (h6 : ∀ y ∈ [main_v32, main_v33, main_v34, main_v35], b ≠ y) :
    W9 m ρ c (Proc.devRef .tc b) = m ((c.tc : Thread nD τ).loc b) :=
  (skip_hostOps2_2 m ρ c b h6).trans ((skip_hostOps2_1 m ρ c b h5).trans ((skip_hostOps2 m ρ c b h4).trans
    ((W6_of_ne m ρ c b hr1).trans (w5_launch m ρ c b h0 h1 h2 hr h3))))

/-! ## The second region's entry -/

theorem v5_v6_0 : V5 m ρ c main_v6_0 = (dat0 (V3 m ρ) c).arrAt 4 cfg0.N :=
  (skip_hostOps1 m ρ c main_v6_0 (by decide)).trans (W4_arr m ρ c 4)

theorem w4_arg5 : W4 m ρ c (Proc.devRef .tc main_arg5) = m ((c.tc : Thread nD τ).loc main_arg5) :=
  (W4_of_ne m ρ c main_arg5 (by decide)).trans (w3_launch m ρ c main_arg5 (by decide) (by decide) (by decide))
theorem w4_arg6 : W4 m ρ c (Proc.devRef .tc main_arg6) = m ((c.tc : Thread nD τ).loc main_arg6) :=
  (W4_of_ne m ρ c main_arg6 (by decide)).trans (w3_launch m ρ c main_arg6 (by decide) (by decide) (by decide))

theorem v5_v21 : (V5 m ρ c main_v21 : S1x128.Idx → EReal)
    = scaleArr (F := Ideal) ((dat0 (V3 m ρ) c).arrAt 5 cfg0.N) ((dat0 (V3 m ρ) c).arrAt 6 cfg0.N)
        (m ((c.tc : Thread nD τ).loc main_arg5)) := by
  have h1 : W4 m ρ c (Proc.devRef .tc main_v6_1) = (dat0 (V3 m ρ) c).arrAt 5 cfg0.N := W4_arr m ρ c 5
  have h2 : W4 m ρ c (Proc.devRef .tc main_v6_2) = (dat0 (V3 m ρ) c).arrAt 6 cfg0.N := W4_arr m ρ c 6
  have h5 := w4_arg5 m ρ c
  show StableHlo.after hostOps1 (W4 m ρ c) (Proc.devRef .tc main_v21) = _
  rw [← h1, ← h2, ← h5]
  generalize W4 m ρ c = X
  after_results <;> rfl

theorem v5_v22 : (V5 m ρ c main_v22 : S1x128.Idx → EReal)
    = shiftArr (F := Ideal) ((dat0 (V3 m ρ) c).arrAt 5 cfg0.N) ((dat0 (V3 m ρ) c).arrAt 6 cfg0.N)
        (m ((c.tc : Thread nD τ).loc main_arg5)) (m ((c.tc : Thread nD τ).loc main_arg6)) := by
  have h1 : W4 m ρ c (Proc.devRef .tc main_v6_1) = (dat0 (V3 m ρ) c).arrAt 5 cfg0.N := W4_arr m ρ c 5
  have h2 : W4 m ρ c (Proc.devRef .tc main_v6_2) = (dat0 (V3 m ρ) c).arrAt 6 cfg0.N := W4_arr m ρ c 6
  have h5 := w4_arg5 m ρ c
  have h6 := w4_arg6 m ρ c
  show StableHlo.after hostOps1 (W4 m ρ c) (Proc.devRef .tc main_v22) = _
  rw [← h1, ← h2, ← h5, ← h6]
  generalize W4 m ρ c = X
  after_results <;> rfl

/-! ## The third region's entry -/

theorem v9_arg0 : V9 m ρ c main_arg0 = m ((c.tc : Thread nD τ).loc main_arg0) :=
  w9_launch m ρ c main_arg0 (by decide) (by decide) (by decide) (by decide) (by decide) (by decide) (by decide) (by decide) (by decide)

theorem v9_arg7 : V9 m ρ c main_arg7 = m ((c.tc : Thread nD τ).loc main_arg7) :=
  w9_launch m ρ c main_arg7 (by decide) (by decide) (by decide) (by decide) (by decide) (by decide) (by decide) (by decide) (by decide)

theorem w8_arg8 : W8 m ρ c (Proc.devRef .tc main_arg8) = m ((c.tc : Thread nD τ).loc main_arg8) :=
  (skip_hostOps2_1 m ρ c main_arg8 (by decide)).trans ((skip_hostOps2 m ρ c main_arg8 (by decide)).trans
    ((W6_of_ne m ρ c main_arg8 (by decide)).trans
      (w5_launch m ρ c main_arg8 (by decide) (by decide) (by decide) (by decide) (by decide))))

theorem v9_v35 : (V9 m ρ c main_v35 : S1x64.Idx → EReal)
    = shapeCast S1x64 (m ((c.tc : Thread nD τ).loc main_arg8)) Facts₀.shapeCasts_S64_S1x64 := by
  have h8 := w8_arg8 m ρ c
  show StableHlo.after hostOps2_2 (W8 m ρ c) (Proc.devRef .tc main_v35) = _
  rw [← h8]
  generalize W8 m ρ c = X
  after_results <;> rfl

/-- The row index vector, written by the first stretch, is still there when the last stretches read it. -/
theorem w6_v1 : (W6 m ρ c (Proc.devRef .tc main_v1) : S800000.Idx → BitVec 32) = row (m ((c.tc : Thread nD τ).loc main_arg1)) := by
  have e1 : W6 m ρ c (Proc.devRef .tc main_v1) = W1 m ρ c (Proc.devRef .tc main_v1) :=
    (W6_of_ne m ρ c main_v1 (by decide)).trans ((skip_hostOps1 m ρ c main_v1 (by decide)).trans
      ((W4_of_ne m ρ c main_v1 (by decide)).trans ((skip_hostOps0_2 m ρ c main_v1 (by decide)).trans
        (skip_hostOps0_1 m ρ c main_v1 (by decide)))))
  rw [e1]
  show StableHlo.after hostOps0 (W0 m ρ c) (Proc.devRef .tc main_v1) = _
  have e0 : W0 m ρ c (Proc.devRef .tc main_arg1) = m ((c.tc : Thread nD τ).loc main_arg1) := rfl
  rw [← e0]
  generalize W0 m ρ c = X
  after_results <;> rfl

/-- The scattered sum of the second region's output onto the row nodes, after the stretch that computes it. -/
theorem w7_v26 : (W7 m ρ c (Proc.devRef .tc main_v26) : S50000x128.Idx → EReal)
    = Host.scatterAdd (F := Ideal) scatter_S50000x128_S800000x1_S800000x128_1_0_0_1
        (broadcastInDim S50000x128 ![] Facts₀.bcast_S_S50000x128 (constant S_ .f32 0x00000000#32))
        (broadcastInDim S800000x1 ![0] Facts₀.bcast_S800000_S800000x1_0 (row (m ((c.tc : Thread nD τ).loc main_arg1))))
        ((dat1 (V5 m ρ) c).arrAt 3 cfg1.N) := by
  have h23 : W6 m ρ c (Proc.devRef .tc main_v23) = (dat1 (V5 m ρ) c).arrAt 3 cfg1.N := W6_arr m ρ c 3
  have h1 := w6_v1 m ρ c
  show StableHlo.after hostOps2 (W6 m ρ c) (Proc.devRef .tc main_v26) = _
  rw [← h23, ← h1]
  generalize W6 m ρ c = X
  after_results <;> rfl

/-- The scattered count of edges per row node. -/
theorem w7_v30 : (W7 m ρ c (Proc.devRef .tc main_v30) : S50000.Idx → EReal)
    = Host.scatterAdd (F := Ideal) scatter_S50000_S800000x1_S800000_n_0_0_1
        (broadcastInDim S50000 ![] Facts₀.bcast_S_S50000 (constant S_ .f32 0x00000000#32))
        (broadcastInDim S800000x1 ![0] Facts₀.bcast_S800000_S800000x1_0 (row (m ((c.tc : Thread nD τ).loc main_arg1))))
        (broadcastInDim S800000 ![] Facts₀.bcast_S_S800000 (constant S_ .f32 0x3F800000#32)) := by
  have h1 := w6_v1 m ρ c
  show StableHlo.after hostOps2 (W6 m ρ c) (Proc.devRef .tc main_v30) = _
  rw [← h1]
  generalize W6 m ρ c = X
  after_results <;> rfl

/-- The constant one the count is clamped against. -/
theorem w7_cst5 : (W7 m ρ c (Proc.devRef .tc main_cst_5) : S_.Idx → EReal) = constant (F := Ideal) S_ .f32 0x3F800000#32 := by
  show StableHlo.after hostOps2 (W6 m ρ c) (Proc.devRef .tc main_cst_5) = _
  generalize W6 m ρ c = X
  after_results <;> rfl

/-- The count, at least one. -/
theorem w8_v31 : (W8 m ρ c (Proc.devRef .tc main_v31) : S50000.Idx → EReal)
    = maximumf (F := Ideal) (broadcastInDim S50000 ![] Facts₀.bcast_S_S50000 (id (constant S_ .f32 0x3F800000#32)))
        (Host.scatterAdd scatter_S50000_S800000x1_S800000_n_0_0_1
          (broadcastInDim S50000 ![] Facts₀.bcast_S_S50000 (constant S_ .f32 0x00000000#32))
          (broadcastInDim S800000x1 ![0] Facts₀.bcast_S800000_S800000x1_0 (row (m ((c.tc : Thread nD τ).loc main_arg1))))
          (broadcastInDim S800000 ![] Facts₀.bcast_S_S800000 (constant S_ .f32 0x3F800000#32))) := by
  have h30 := w7_v30 m ρ c
  have h5 := w7_cst5 m ρ c
  show StableHlo.after hostOps2_1 (W7 m ρ c) (Proc.devRef .tc main_v31) = _
  rw [← h30, ← h5]
  generalize W7 m ρ c = X
  after_results <;> rfl

theorem v9_v34 : (V9 m ρ c main_v34 : S50000x128.Idx → EReal)
    = agg (F := Ideal) ((dat1 (V5 m ρ) c).arrAt 3 cfg1.N) (m ((c.tc : Thread nD τ).loc main_arg1)) := by
  have h26 : W8 m ρ c (Proc.devRef .tc main_v26) = W7 m ρ c (Proc.devRef .tc main_v26) :=
    skip_hostOps2_1 m ρ c main_v26 (by decide)
  have h26' := w7_v26 m ρ c
  have h31 := w8_v31 m ρ c
  unfold agg
  rw [← h31, ← h26', ← h26]
  show StableHlo.after hostOps2_2 (W8 m ρ c) (Proc.devRef .tc main_v34) = _
  generalize W8 m ρ c = X
  after_results <;> rfl

/-! ## The end -/

theorem w10_v36 : W10 m ρ c (Proc.devRef .tc main_v36) = (dat2 (V9 m ρ) c).arrAt 4 cfg2.N :=
  W10_arr m ρ c 4

end Cert.KernelIdeal.Chain

end
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.Spec.lean ====
/-
  Batch normalisation of one feature column over all 800000 edges, written the two ways the two programs write it.

  For a column h of real numbers, with mean μ = (Σ h) / N, the reference normalises by the centred second moment
  (Σ (h - μ)²) / N, the kernel by the raw one (Σ h²) / N - μ². Over the reals these are one number, so the two affine
  forms (h - μ) · r · γ + β and h · (γ · r) + (β - μ · (γ · r)), with r the inverse square root of that number plus
  a positive ε, agree entry by entry. Over the extended reals this needs every h to be a real number: at an infinite
  entry a difference of infinities is a convention.

  Also here: the value of one edge under the linear layer (its 88 features against a weight column, plus a bias), and
  of one node under the final layer (its 132 features, against a weight column, plus a bias, clamped at zero), as
  sums over the feature index, which is how both programs' arrays are read.
-/
import Idealize.ShloMosaic.Lib.ValueIdx
import Idealize.ShloMosaic.PureOps.Ideal
import Idealize.ShloMosaic.PureOps.Ideal.Laws
import proofs.«400937_j23630910063281_1_alg».proof.Proof.LibRealValued
import proofs.«400937_j23630910063281_1_alg».proof.Proof.LibIdealReal
import Mathlib.Tactic.Ring
import Mathlib.Tactic.FieldSimp
import Mathlib.Tactic.Linarith
import Mathlib.Tactic.Positivity
import Mathlib.Algebra.BigOperators.Ring.Finset
import Mathlib.Algebra.Order.BigOperators.Ring.Finset

noncomputable section

namespace EdgeBn

open Idealize.ShloMosaic Idealize.ShloMosaic.ValueIdx RealValued
open scoped BigOperators

/-! ## Arrays by their entries -/

/-- The two-axis array with the given entries. -/
def ofEntries {a b : ℕ} (f : Fin a → Fin b → EReal) : (⟨2, ![a, b]⟩ : Shape).Idx → EReal := fun i => f (i 0) (i 1)

theorem ofEntries_apply {a b : ℕ} (f : Fin a → Fin b → EReal) (r : Fin a) (c : Fin b) : ofEntries f (ix2 r c) = f r c := rfl

/-- A two-axis array is the array of its entries. -/
theorem eq_ofEntries {a b : ℕ} (x : (⟨2, ![a, b]⟩ : Shape).Idx → EReal) : x = ofEntries fun r c => x (ix2 r c) :=
  funext fun i => by rw [eq_ix2 i]; rfl

/-! ## The feature rows and the two dense layers, entry by entry -/

/-- Feature k of row r of [u | v]: the 4 columns of u, then the 84 of v. -/
def feat88 {n : ℕ} (u : (⟨2, ![n, 4]⟩ : Shape).Idx → EReal) (v : (⟨2, ![n, 84]⟩ : Shape).Idx → EReal) (r : Fin n) (k : Fin 88) : EReal :=
  if h : k.val < 4 then u (ix2 r ⟨k.val, h⟩) else v (ix2 r ⟨k.val - 4, by have := k.isLt; omega⟩)

/-- Feature k of row r of [u | v]: the 4 columns of u, then the 128 of v. -/
def feat132 {n : ℕ} (u : (⟨2, ![n, 4]⟩ : Shape).Idx → EReal) (v : (⟨2, ![n, 128]⟩ : Shape).Idx → EReal) (r : Fin n) (k : Fin 132) : EReal :=
  if h : k.val < 4 then u (ix2 r ⟨k.val, h⟩) else v (ix2 r ⟨k.val - 4, by have := k.isLt; omega⟩)

/-- The edge layer at row r, column j: the row's 88 features against column j of the weights, plus the bias. -/
def lin {n : ℕ} (u : (⟨2, ![n, 4]⟩ : Shape).Idx → EReal) (v : (⟨2, ![n, 84]⟩ : Shape).Idx → EReal)
    (W : (⟨2, ![88, 128]⟩ : Shape).Idx → EReal) (b : Fin 128 → EReal) (r : Fin n) (j : Fin 128) : EReal :=
  (∑ k : Fin 88, feat88 u v r k * W (ix2 k j)) + b j

/-- The node layer at row r, column j: the row's 132 features against column j of the weights, plus the bias, at least 0. -/
def mlp {n : ℕ} (u : (⟨2, ![n, 4]⟩ : Shape).Idx → EReal) (v : (⟨2, ![n, 128]⟩ : Shape).Idx → EReal)
    (W : (⟨2, ![132, 64]⟩ : Shape).Idx → EReal) (b : Fin 64 → EReal) (r : Fin n) (j : Fin 64) : EReal :=
  max ((∑ k : Fin 132, feat132 u v r k * W (ix2 k j)) + b j) 0

/-- An edge's features are real numbers when both parts are. -/
theorem feat88_real {n : ℕ} {u : (⟨2, ![n, 4]⟩ : Shape).Idx → EReal} {v : (⟨2, ![n, 84]⟩ : Shape).Idx → EReal}
    (hu : IsReal u) (hv : IsReal v) (r : Fin n) (k : Fin 88) : ∃ x : ℝ, feat88 u v r k = (x : EReal) := by
  unfold feat88; split
  · exact hu _
  · exact hv _

/-- The edge layer of real inputs is a real number. -/
theorem lin_real {n : ℕ} {u : (⟨2, ![n, 4]⟩ : Shape).Idx → EReal} {v : (⟨2, ![n, 84]⟩ : Shape).Idx → EReal}
    {W : (⟨2, ![88, 128]⟩ : Shape).Idx → EReal} {b : Fin 128 → EReal}
    (hu : IsReal u) (hv : IsReal v) (hW : IsReal W) (hb : IsReal b) (r : Fin n) (j : Fin 128) :
    ∃ x : ℝ, lin u v W b r j = (x : EReal) :=
  real_add (isReal_sum_univ _ fun k => real_mul (feat88_real hu hv r k) (hW _)) (hb j)

/-! ## The two constants -/

/-- The number of edges, as the f32 both programs divide by. -/
def cN : EReal := Ideal.ofBits .f32 0x49435000#32
/-- The ε both programs add under the inverse square root: the f32 nearest 1e-5. -/
def cEps : EReal := Ideal.ofBits .f32 0x3727C5AC#32

theorem cN_eq : cN = ((800000 : ℝ) : EReal) := by
  unfold cN; simp [Ideal.ofBits, Ideal.ieee, -EReal.coe_mul]; norm_num

theorem cEps_eq : cEps = (((10995116 : ℝ) * (2 : ℝ) ^ (-40 : ℤ) : ℝ) : EReal) := by
  unfold cEps; simp [Ideal.ofBits, Ideal.ieee, -EReal.coe_mul]

/-! ## One column, the two ways -/

/-- The column's mean. -/
def mean (h : Fin 800000 → EReal) : EReal := Ideal.div (∑ e, h e) cN
/-- The reference's variance: the mean of the squared deviations. -/
def varR (h : Fin 800000 → EReal) : EReal := Ideal.div (∑ e, (h e - mean h) * (h e - mean h)) cN
/-- The kernel's variance: the mean of the squares less the squared mean. -/
def varK (h : Fin 800000 → EReal) : EReal := Ideal.div (∑ e, h e * h e) cN - mean h * mean h
/-- The reference's normalised entry. -/
def normR (h : Fin 800000 → EReal) (γ β : EReal) (e : Fin 800000) : EReal :=
  (h e - mean h) * Ideal.rsqrt (varR h + cEps) * γ + β
/-- The kernel's scale and shift for the column. -/
def scaleK (h : Fin 800000 → EReal) (γ : EReal) : EReal := γ * Ideal.rsqrt (varK h + cEps)
def shiftK (h : Fin 800000 → EReal) (γ β : EReal) : EReal := β - mean h * scaleK h γ
/-- The kernel's normalised entry. -/
def normK (h : Fin 800000 → EReal) (γ β : EReal) (e : Fin 800000) : EReal := h e * scaleK h γ + shiftK h γ β

/-- Over the reals: the mean of the squares less the squared mean is the mean of the squared deviations. -/
theorem real_var_eq (r : Fin 800000 → ℝ) :
    (∑ e, r e * r e) / 800000 - (∑ e, r e) / 800000 * ((∑ e, r e) / 800000)
      = (∑ e, (r e - (∑ e, r e) / 800000) * (r e - (∑ e, r e) / 800000)) / 800000 := by
  have hexp : ∀ e, (r e - (∑ e, r e) / 800000) * (r e - (∑ e, r e) / 800000)
      = r e * r e - 2 * ((∑ e, r e) / 800000) * r e + ((∑ e, r e) / 800000) * ((∑ e, r e) / 800000) := fun e => by ring
  simp only [hexp, Finset.sum_add_distrib, Finset.sum_sub_distrib, ← Finset.mul_sum, Finset.sum_const, Finset.card_univ,
    Fintype.card_fin, nsmul_eq_mul]
  push_cast
  ring

/-- Both variances of a column of real numbers are one real number, and it is not negative. -/
theorem var_real (h : Fin 800000 → EReal) (hh : ∀ e, ∃ r : ℝ, h e = (r : EReal)) :
    ∃ v : ℝ, 0 ≤ v ∧ varR h = (v : EReal) ∧ varK h = (v : EReal) ∧ ∃ μ : ℝ, mean h = (μ : EReal) := by
  choose r hr using hh
  have hN : (800000 : ℝ) ≠ 0 := by norm_num
  have hmean : mean h = (((∑ e, r e) / 800000 : ℝ) : EReal) := by
    unfold mean; simp only [hr]; rw [← IdealReal.coe_sum, cN_eq, IdealReal.div_coe_coe _ _ hN]
  refine ⟨(∑ e, (r e - (∑ e, r e) / 800000) * (r e - (∑ e, r e) / 800000)) / 800000, ?_, ?_, ?_, _, hmean⟩
  · exact div_nonneg (Finset.sum_nonneg fun e _ => mul_self_nonneg _) (by norm_num)
  · unfold varR; rw [hmean]; simp only [hr, ← EReal.coe_sub, ← EReal.coe_mul]
    rw [← IdealReal.coe_sum, cN_eq, IdealReal.div_coe_coe _ _ hN]
  · unfold varK; rw [hmean]; simp only [hr, ← EReal.coe_mul]
    rw [← IdealReal.coe_sum, cN_eq, IdealReal.div_coe_coe _ _ hN, ← EReal.coe_sub, real_var_eq]

/-- THE IDENTITY: on a column of real numbers, with real γ and β, the kernel's normalised entry is the reference's. -/
theorem normK_eq_normR (h : Fin 800000 → EReal) (hh : ∀ e, ∃ r : ℝ, h e = (r : EReal)) {γ β : EReal}
    (hγ : ∃ g : ℝ, γ = (g : EReal)) (hβ : ∃ b : ℝ, β = (b : EReal)) (e : Fin 800000) :
    normK h γ β e = normR h γ β e := by
  obtain ⟨v, hv0, hvR, hvK, μ, hμ⟩ := var_real h hh
  obtain ⟨g, rfl⟩ := hγ
  obtain ⟨b, rfl⟩ := hβ
  obtain ⟨x, hx⟩ := hh e
  have hpos : ∃ s : ℝ, 0 < s ∧ (v : EReal) + cEps = (s : EReal) := by
    refine ⟨v + 10995116 * (2 : ℝ) ^ (-40 : ℤ), by positivity, ?_⟩
    rw [cEps_eq, ← EReal.coe_add]
  obtain ⟨q, _, hq⟩ := rsqrt_of_pos hpos
  unfold normK normR shiftK scaleK
  rw [hvR, hvK, hμ, hx, hq]
  simp only [← EReal.coe_mul, ← EReal.coe_sub, ← EReal.coe_add]
  congr 1
  ring

end EdgeBn

end
-- ==== Proof.KHost.lean ====
/-
  The kernel program's host-side terms read at an entry.

  The one-row scale and shift arrays of the batch normalisation, read at feature j, in terms of entry j of the two
  column-sum rows and of the two parameter vectors; and a vector reshaped to one row, read at (0, j).
-/
import proofs.«400937_j23630910063281_1_alg».proof.Proof.KTerms
import proofs.«400937_j23630910063281_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.KHost

open Cert.KernelIdeal Cert.KernelIdeal.KTerms Idealize.ShloMosaic Idealize.ShloMosaic.ValueIdx

/-- A 128-vector reshaped to one row, at (0, j), is the vector's entry j. -/
theorem row128_apply (x : FVec Ideal S128 .f32) (j : Fin 128) :
    (shapeCast S1x128 x Facts₀.shapeCasts_S128_S1x128 : S1x128.Idx → EReal) (ix2 0 j) = x (ix1 j) :=
  shapeCast_a_1a_apply x _ 0 j

/-- A 64-vector reshaped to one row, at (0, j), is the vector's entry j. -/
theorem row64_apply (x : FVec Ideal S64 .f32) (j : Fin 64) :
    (shapeCast S1x64 x Facts₀.shapeCasts_S64_S1x64 : S1x64.Idx → EReal) (ix2 0 j) = x (ix1 j) :=
  shapeCast_a_1a_apply x _ 0 j

/-- The mean vector at feature j: the column sum's entry over the number of edges. -/
private theorem meanVec_apply (s : FVec Ideal S1x128 .f32) (j : Fin 128) :
    (meanVec (F := Ideal) s : S128.Idx → EReal) (ix1 j) = Ideal.div (s (ix2 0 j)) EdgeBn.cN := by
  unfold meanVec
  rw [shapeCast_1a_a_apply]
  rfl

/-- The scale vector at feature j: gamma_j times the inverse square root of the raw variance plus eps. -/
private theorem scaleVec_apply (s ss : FVec Ideal S1x128 .f32) (g : FVec Ideal S128 .f32) (j : Fin 128) :
    (scaleVec (F := Ideal) s ss g : S128.Idx → EReal) (ix1 j)
      = g (ix1 j) * Ideal.rsqrt ((Ideal.div (ss (ix2 0 j)) EdgeBn.cN
          - Ideal.div (s (ix2 0 j)) EdgeBn.cN * Ideal.div (s (ix2 0 j)) EdgeBn.cN) + EdgeBn.cEps) := by
  unfold scaleVec
  rw [mulf_apply]
  show g (ix1 j) * Ideal.rsqrt ((shapeCast S128 (Host.divf ss _) Facts₀.shapeCasts_S1x128_S128 (ix1 j)
    - meanVec s (ix1 j) * meanVec s (ix1 j)) + EdgeBn.cEps) = _
  rw [shapeCast_1a_a_apply, meanVec_apply]
  rfl

/-- The scale row at feature j: gamma_j times the inverse square root of (sum of squares / N - (sum / N)^2 + eps). -/
theorem scaleArr_apply (s ss : FVec Ideal S1x128 .f32) (g : FVec Ideal S128 .f32) (j : Fin 128) :
    (scaleArr (F := Ideal) s ss g : S1x128.Idx → EReal) (ix2 0 j)
      = g (ix1 j) * Ideal.rsqrt ((Ideal.div (ss (ix2 0 j)) EdgeBn.cN
          - Ideal.div (s (ix2 0 j)) EdgeBn.cN * Ideal.div (s (ix2 0 j)) EdgeBn.cN) + EdgeBn.cEps) := by
  unfold scaleArr
  rw [row128_apply]
  exact scaleVec_apply s ss g j

/-- The shift row at feature j: beta_j less (sum / N) times the scale. -/
theorem shiftArr_apply (s ss : FVec Ideal S1x128 .f32) (g b : FVec Ideal S128 .f32) (j : Fin 128) :
    (shiftArr (F := Ideal) s ss g b : S1x128.Idx → EReal) (ix2 0 j)
      = b (ix1 j) - Ideal.div (s (ix2 0 j)) EdgeBn.cN
          * (g (ix1 j) * Ideal.rsqrt ((Ideal.div (ss (ix2 0 j)) EdgeBn.cN
              - Ideal.div (s (ix2 0 j)) EdgeBn.cN * Ideal.div (s (ix2 0 j)) EdgeBn.cN) + EdgeBn.cEps)) := by
  unfold shiftArr
  rw [row128_apply, subf_apply, mulf_apply, scaleVec_apply, meanVec_apply]

end Cert.KernelIdeal.KHost

end
-- ==== Proof.R0Pieces.lean ====
/-
  What the first region's body leaves in its three output buffers, in each of its two cases, as values.

  The body has one branch: at the first grid point it zeroes the two one-row accumulators. Then, in both cases, it
  computes the block of the edge layer from its four input blocks and stores it whole to the first output; it loads the
  second output's row, adds the block's column sums, and stores the row back; and the same for the third output with the
  column sums of the block's squares. So in both cases the first output's buffer ends at the block of the edge layer; the
  second at (what it held, or zero in the first point's case) plus the column sums; the third likewise with the squares.
  In each case the last store to a buffer covers it whole, so the buffer's contents after the body is that store's value;
  where the row was zeroed first, the row the update loads back is that zero row.
-/
import proofs.«400937_j23630910063281_1_alg».proof.Proof.Gen.KernelIdeal.Frame
import Idealize.ShloMosaic.Lib.Pipeline.Value
import Idealize.ShloMosaic.Lib.Tactic

set_option maxRecDepth 16384

noncomputable section

namespace Cert.KernelIdeal.R0Pieces

open Cert.KernelIdeal Cert.KernelIdeal.Gen Idealize.ShloMosaic Idealize.ShloMosaic.TcCoe Idealize.SL.Sem
open Idealize.ShloMosaic.Tactic

variable {F : FTy → Type} [FloatOps F]

/-- The origin of a two-axis block, as the constant-zero offset function. -/
private theorem hz : (![0, 0] : Fin 2 → Nat) = fun _ => 0 := funext fun a => by fin_cases a <;> rfl

/-- First point: the first output's buffer ends at the edge layer's block. -/
theorem out_A_4 (c : Dev nD) (i : grid0.Coords) (a1 : Memref sig .tc .vmem S16000x4 .f32) (h1 : a1.IsWhole) (a2 : Memref sig .tc .vmem S16000x84 .f32) (h2 : a2.IsWhole) (a3 : Memref sig .tc .vmem S88x128 .f32) (h3 : a3.IsWhole) (a4 : Memref sig .tc .vmem S1x128 .f32) (h4 : a4.IsWhole) (a5 : Memref sig .tc .vmem S16000x128 .f32) (h5 : a5.IsWhole) (a6 : Memref sig .tc .vmem S1x128 .f32) (h6 : a6.IsWhole) (a7 : Memref sig .tc .vmem S1x128 .f32) (h7 : a7.IsWhole) (hc : cond0_0 i) (x0 : Vec F S16000x4 .f32) (x1 : Vec F S16000x84 .f32) (x2 : Vec F S88x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S16000x4) hz, View.ld_unit_zero (S := S16000x84) hz,
    View.ld_unit_zero (S := S88x128) hz, View.ld_unit_zero (S := S1x128) hz]

/-- First point: the second output's buffer ends at zero plus the block's column sums. -/
theorem out_A_5 (c : Dev nD) (i : grid0.Coords) (a1 : Memref sig .tc .vmem S16000x4 .f32) (h1 : a1.IsWhole) (a2 : Memref sig .tc .vmem S16000x84 .f32) (h2 : a2.IsWhole) (a3 : Memref sig .tc .vmem S88x128 .f32) (h3 : a3.IsWhole) (a4 : Memref sig .tc .vmem S1x128 .f32) (h4 : a4.IsWhole) (a5 : Memref sig .tc .vmem S16000x128 .f32) (h5 : a5.IsWhole) (a6 : Memref sig .tc .vmem S1x128 .f32) (h6 : a6.IsWhole) (a7 : Memref sig .tc .vmem S1x128 .f32) (h7 : a7.IsWhole) (hc : cond0_0 i) (x0 : Vec F S16000x4 .f32) (x1 : Vec F S16000x84 .f32) (x2 : Vec F S88x128 .f32) (x3 : Vec F S1x128 .f32) :
    out0_A_5 c i a1 h1 a2 h2 a3 h3 a4 h4 a5 h5 a6 h6 a7 h7 hc x0 x1 x2 x3 = k0_pay4 x0 x1 x2 x3 (k0_pay1 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S16000x4) hz, View.ld_unit_zero (S := S16000x84) hz,
    View.ld_unit_zero (S := S88x128) hz, View.ld_unit_zero (S := S1x128) hz]

/-- First point: the third output's buffer ends at zero plus the column sums of the block's squares. -/
theorem out_A_6 (c : Dev nD) (i : grid0.Coords) (a1 : Memref sig .tc .vmem S16000x4 .f32) (h1 : a1.IsWhole) (a2 : Memref sig .tc .vmem S16000x84 .f32) (h2 : a2.IsWhole) (a3 : Memref sig .tc .vmem S88x128 .f32) (h3 : a3.IsWhole) (a4 : Memref sig .tc .vmem S1x128 .f32) (h4 : a4.IsWhole) (a5 : Memref sig .tc .vmem S16000x128 .f32) (h5 : a5.IsWhole) (a6 : Memref sig .tc .vmem S1x128 .f32) (h6 : a6.IsWhole) (a7 : Memref sig .tc .vmem S1x128 .f32) (h7 : a7.IsWhole) (hc : cond0_0 i) (x0 : Vec F S16000x4 .f32) (x1 : Vec F S16000x84 .f32) (x2 : Vec F S88x128 .f32) (x3 : Vec F S1x128 .f32) :
    out0_A_6 c i a1 h1 a2 h2 a3 h3 a4 h4 a5 h5 a6 h6 a7 h7 hc x0 x1 x2 x3 = k0_pay5 x0 x1 x2 x3 (k0_pay2 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S16000x4) hz, View.ld_unit_zero (S := S16000x84) hz,
    View.ld_unit_zero (S := S88x128) hz, View.ld_unit_zero (S := S1x128) hz]

/-- Later points: the first output's buffer ends at the edge layer's block. -/
theorem out_B_4 (c : Dev nD) (i : grid0.Coords) (a1 : Memref sig .tc .vmem S16000x4 .f32) (h1 : a1.IsWhole) (a2 : Memref sig .tc .vmem S16000x84 .f32) (h2 : a2.IsWhole) (a3 : Memref sig .tc .vmem S88x128 .f32) (h3 : a3.IsWhole) (a4 : Memref sig .tc .vmem S1x128 .f32) (h4 : a4.IsWhole) (a5 : Memref sig .tc .vmem S16000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S16000x4 .f32) (x1 : Vec F S16000x84 .f32) (x2 : Vec F S88x128 .f32) (x3 : Vec F S1x128 .f32) (p5 p6 : Vec F S1x128 .f32) :
    out0_B_4 c i a1 h1 a2 h2 a3 h3 a4 h4 a5 h5 a6 h6 a7 h7 hc x0 x1 x2 x3 p5 p6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 p5 p6)]
  unfold kernelRun0_B
  dsimp only
  sl_unfold_words
  rw [View.canon_unit_zero hz]
  simp only [View.readAt_eq_ld, h1.read_unread, h2.read_unread, h3.read_unread, h4.read_unread,
    View.ld_unit_zero (S := S16000x4) hz, View.ld_unit_zero (S := S16000x84) hz,
    View.ld_unit_zero (S := S88x128) hz, View.ld_unit_zero (S := S1x128) hz]

/-- Later points: the second output's buffer ends at what it held plus the block's column sums. -/
theorem out_B_5 (c : Dev nD) (i : grid0.Coords) (a1 : Memref sig .tc .vmem S16000x4 .f32) (h1 : a1.IsWhole) (a2 : Memref sig .tc .vmem S16000x84 .f32) (h2 : a2.IsWhole) (a3 : Memref sig .tc .vmem S88x128 .f32) (h3 : a3.IsWhole) (a4 : Memref sig .tc .vmem S1x128 .f32) (h4 : a4.IsWhole) (a5 : Memref sig .tc .vmem S16000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S16000x4 .f32) (x1 : Vec F S16000x84 .f32) (x2 : Vec F S88x128 .f32) (x3 : Vec F S1x128 .f32) (p5 p6 : Vec F S1x128 .f32) :
    out0_B_5 c i a1 h1 a2 h2 a3 h3 a4 h4 a5 h5 a6 h6 a7 h7 hc x0 x1 x2 x3 p5 p6 = k0_pay4 x0 x1 x2 x3 p5 := by
  unfold out0_B_5
  rw [View.read_writes_eq_canon _ _ _ (cover0_B_5 c i a1 h1 a2 h2 a3 h3 a4 h4 a5 h5 a6 h6 a7 h7 hc x0 x1 x2 x3 p5 p6)]
  unfold kernelRun0_B
  dsimp only
  sl_unfold_words
  rw [View.canon_unit_zero hz]
  simp only [View.readAt_eq_ld, h1.read_unread, h2.read_unread, h3.read_unread, h4.read_unread, h6.read_unread,
    View.ld_unit_zero (S := S16000x4) hz, View.ld_unit_zero (S := S16000x84) hz,
    View.ld_unit_zero (S := S88x128) hz, View.ld_unit_zero (S := S1x128) hz]

/-- Later points: the third output's buffer ends at what it held plus the column sums of the block's squares. -/
theorem out_B_6 (c : Dev nD) (i : grid0.Coords) (a1 : Memref sig .tc .vmem S16000x4 .f32) (h1 : a1.IsWhole) (a2 : Memref sig .tc .vmem S16000x84 .f32) (h2 : a2.IsWhole) (a3 : Memref sig .tc .vmem S88x128 .f32) (h3 : a3.IsWhole) (a4 : Memref sig .tc .vmem S1x128 .f32) (h4 : a4.IsWhole) (a5 : Memref sig .tc .vmem S16000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S16000x4 .f32) (x1 : Vec F S16000x84 .f32) (x2 : Vec F S88x128 .f32) (x3 : Vec F S1x128 .f32) (p5 p6 : Vec F S1x128 .f32) :
    out0_B_6 c i a1 h1 a2 h2 a3 h3 a4 h4 a5 h5 a6 h6 a7 h7 hc x0 x1 x2 x3 p5 p6 = k0_pay5 x0 x1 x2 x3 p6 := by
  unfold out0_B_6
  rw [View.read_writes_eq_canon _ _ _ (cover0_B_6 c i a1 h1 a2 h2 a3 h3 a4 h4 a5 h5 a6 h6 a7 h7 hc x0 x1 x2 x3 p5 p6)]
  unfold kernelRun0_B
  dsimp only
  sl_unfold_words
  rw [View.canon_unit_zero hz]
  simp only [View.readAt_eq_ld, h1.read_unread, h2.read_unread, h3.read_unread, h4.read_unread, h7.read_unread,
    View.ld_unit_zero (S := S16000x4) hz, View.ld_unit_zero (S := S16000x84) hz,
    View.ld_unit_zero (S := S88x128) hz, View.ld_unit_zero (S := S1x128) hz]

end Cert.KernelIdeal.R0Pieces

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.R0Pay.lean ====
/-
  The first region's body arithmetic at an entry, over the extended reals.

  The block of the edge layer: the two input row blocks joined side by side (4 + 84 = 88 features), times the 88 x 128
  weights into a zero accumulator, plus the bias row broadcast down the rows: entry (r, j) is the sum over the 88
  features of row r's feature times the weight, plus the bias's entry j. The accumulator updates: entry j of the row
  held plus the sum over the block's 16000 rows of the block's entry (r, j), or of its square.
-/
import proofs.«400937_j23630910063281_1_alg».proof.Proof.Gen.KernelIdeal.Skeleton
import proofs.«400937_j23630910063281_1_alg».proof.Proof.Spec
import proofs.«400937_j23630910063281_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0Pay

open Cert.KernelIdeal Cert.KernelIdeal.Gen Idealize.ShloMosaic Idealize.ShloMosaic.ValueIdx

variable (x0 : S16000x4.Idx → EReal) (x1 : S16000x84.Idx → EReal) (x2 : S88x128.Idx → EReal) (x3 : S1x128.Idx → EReal)

/-! ## The pieces, over plain arrays -/

/-- The joined row: at column k it is the first block's column k for k < 4, else the second block's column k - 4. -/
private theorem joined_apply (hs : S16000x4.ShapeCasts S16000x4)
    (hc : Shape.Concatenates [S16000x4, S16000x84] S16000x88 1) (r : Fin 16000) (k : Fin 88) :
    concatenate S16000x88 1 [⟨S16000x4, shapeCast S16000x4 x0 hs⟩, ⟨S16000x84, x1⟩] hc (ix2 r k)
      = EdgeBn.feat88 x0 x1 r k := by
  rw [shapeCast_self]
  unfold EdgeBn.feat88
  split
  · rename_i hk
    refine concatenate_pair_apply_left (1 : Fin 2) x0 x1 hc (ix2 r k) rfl (ix2 r ⟨k.val, hk⟩) fun b => ?_
    match b with
    | ⟨0, _⟩ => rfl
    | ⟨1, _⟩ => rfl
  · rename_i hk
    refine concatenate_pair_apply_right (1 : Fin 2) x0 x1 hc (ix2 r k) rfl rfl
      (ix2 r ⟨k.val - 4, by have := k.isLt; omega⟩) (fun b hb => ?_) ?_
    · match b with
      | ⟨0, _⟩ => rfl
      | ⟨1, _⟩ => exact absurd rfl hb
    · show (k.val - 4) + 4 = k.val
      omega

/-- A column sum: the reduction over the rows of a 16000 x 128 array into the zero word, recast as one row, at column j
    is the sum over the 16000 rows of the array's entry (r, j). -/
private theorem colsum_apply (src : FVec Ideal S16000x128 .f32) (h : S16000x128.Reduces [0] S128) (hφ : FKind.Formats .f32)
    (hacc : (0x00000000#32 : BitVec 32) = FKind.add.neutral .f32 hφ) (hs : S128.ShapeCasts S1x128) (j : Fin 128) :
    shapeCast S1x128 (multiReduction (F := Ideal) .add [0] S128 src 0x00000000#32 h hφ hacc) hs (ix2 0 j)
      = ∑ r : Fin 16000, src (ix2 r j) := by
  refine (shapeCast_a_1a_apply _ hs 0 j).trans ?_
  refine (Ideal.multiReduction_add_single src _ h hφ hacc (ix1 j)).trans ?_
  refine Finset.sum_congr rfl fun r _ => congrArg src (funext fun a => Fin.ext ?_)
  match a with
  | ⟨0, _⟩ => rfl
  | ⟨1, _⟩ => rfl

/-! ## The payloads -/

/-- The zero rows the first point stores. -/
theorem pay1_apply (j : Fin 128) : (k0_pay1 (F := Ideal) : S1x128.Idx → EReal) (ix2 0 j) = 0 :=
  Ideal.ofBits_zero_f32
theorem pay2_apply (j : Fin 128) : (k0_pay2 (F := Ideal) : S1x128.Idx → EReal) (ix2 0 j) = 0 :=
  Ideal.ofBits_zero_f32

/-- The block of the edge layer, entry by entry. -/
theorem pay3_apply (r : Fin 16000) (j : Fin 128) :
    (k0_pay3 (F := Ideal) x0 x1 x2 x3 : S16000x128.Idx → EReal) (ix2 r j)
      = EdgeBn.lin x0 x1 x2 (fun j => x3 (ix2 0 j)) r j := by
  unfold k0_pay3 EdgeBn.lin
  dsimp only
  refine (addf_apply _ _ _).trans (congrArg₂ (· + ·) ?_ ?_)
  · refine (Cert.PlainMatmul.apply none _ x2 r j).trans ?_
    exact Finset.sum_congr rfl fun k _ => congrArg (· * x2 (ix2 k j)) (joined_apply x0 x1 _ _ r k)
  · refine (broadcastTo_1b_ab_apply _ _ r j).trans ?_
    exact congrFun (shapeCast_self x3 _) _

/-- The column-sum row after a point: what it held plus the block's column sums. -/
theorem pay4_apply (acc : S1x128.Idx → EReal) (j : Fin 128) :
    (k0_pay4 (F := Ideal) x0 x1 x2 x3 acc : S1x128.Idx → EReal) (ix2 0 j)
      = acc (ix2 0 j) + ∑ r : Fin 16000, EdgeBn.lin x0 x1 x2 (fun j => x3 (ix2 0 j)) r j := by
  unfold k0_pay4
  dsimp only
  refine (addf_apply _ _ _).trans (congrArg₂ (· + ·) ?_ ?_)
  · exact congrFun (shapeCast_self acc _) _
  · refine (colsum_apply _ _ _ _ _ j).trans ?_
    exact Finset.sum_congr rfl fun r _ => pay3_apply x0 x1 x2 x3 r j

/-- The sum-of-squares row after a point: what it held plus the column sums of the block's squares. -/
theorem pay5_apply (acc : S1x128.Idx → EReal) (j : Fin 128) :
    (k0_pay5 (F := Ideal) x0 x1 x2 x3 acc : S1x128.Idx → EReal) (ix2 0 j)
      = acc (ix2 0 j) + ∑ r : Fin 16000,
          EdgeBn.lin x0 x1 x2 (fun j => x3 (ix2 0 j)) r j * EdgeBn.lin x0 x1 x2 (fun j => x3 (ix2 0 j)) r j := by
  unfold k0_pay5
  dsimp only
  refine (addf_apply _ _ _).trans (congrArg₂ (· + ·) ?_ ?_)
  · exact congrFun (shapeCast_self acc _) _
  · refine (colsum_apply _ _ _ _ _ j).trans ?_
    exact Finset.sum_congr rfl fun r _ =>
      (mulf_apply _ _ _).trans (congrArg₂ (· * ·) (pay3_apply x0 x1 x2 x3 r j) (pay3_apply x0 x1 x2 x3 r j))

end Cert.KernelIdeal.R0Pay

end
-- ==== Proof.Region0.lean ====
/-
  The first grid region (the edge layer and its two running column sums), as arrays.

  At each of its 50 points the region reads a block of 16000 gathered node rows (4 features) and the same rows of the
  edge attributes (84 features), the whole 88 x 128 weight array and the one-row bias; it joins the two row blocks side
  by side, multiplies by the weights into a zero accumulator and adds the bias: that block of 16000 x 128 is written to
  the first output. The second and third outputs are one row each and stay in place over the whole grid: zeroed at the
  first point, at every point they gain the column sums of the block just computed, and of its entrywise squares, and
  they are written back after the last point. So the first output ends as the edge layer of every row, and the other two
  as its column sums and the column sums of its squares over all 800000 rows.
-/
import proofs.«400937_j23630910063281_1_alg».proof.Proof.Gen.KernelIdeal.Frame
import proofs.«400937_j23630910063281_1_alg».proof.Proof.Spec
import proofs.«400937_j23630910063281_1_alg».proof.Proof.R0Pieces
import proofs.«400937_j23630910063281_1_alg».proof.Proof.R0Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«400937_j23630910063281_1_alg».proof.Proof.LibPlainMatmul
import Mathlib.Algebra.BigOperators.Intervals
import Mathlib.Algebra.BigOperators.Fin
set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-- The entered arrays: the taken node rows, the edge attributes, the weights and the bias row. -/
abbrev inG (c : Dev nD) : S800000x4.Idx → EReal := V c main_v4
abbrev inA (c : Dev nD) : S800000x84.Idx → EReal := V c main_arg2
abbrev inW (c : Dev nD) : S88x128.Idx → EReal := V c main_arg3
abbrev inB (c : Dev nD) : S1x128.Idx → EReal := V c main_v5
/-- The three arrays the region leaves. -/
abbrev outH (c : Dev nD) : S800000x128.Idx → EReal := (dat0 (F := Ideal) V c).arrAt 4 cfg0.N
abbrev outS (c : Dev nD) : S1x128.Idx → EReal := (dat0 (F := Ideal) V c).arrAt 5 cfg0.N
abbrev outSS (c : Dev nD) : S1x128.Idx → EReal := (dat0 (F := Ideal) V c).arrAt 6 cfg0.N

/-- The edge layer of row e, column j, of the arrays the region is entered with. -/
def H (c : Dev nD) (e : Fin 800000) (j : Fin 128) : EReal :=
  EdgeBn.lin (inG V c) (inA V c) (inW V c) (fun j => inB V c (ix2 0 j)) e j

/-! ## The four input blocks at a point -/

/-- The blocks the region reads at point t. -/
private abbrev blkG (c : Dev nD) (t : Fin cfg0.N) : S16000x4.Idx → EReal := iblk0 (F := Ideal) V c 0 t
private abbrev blkA (c : Dev nD) (t : Fin cfg0.N) : S16000x84.Idx → EReal := iblk0 (F := Ideal) V c 1 t
private abbrev blkW (c : Dev nD) (t : Fin cfg0.N) : S88x128.Idx → EReal := iblk0 (F := Ideal) V c 2 t
private abbrev blkB (c : Dev nD) (t : Fin cfg0.N) : S1x128.Idx → EReal := iblk0 (F := Ideal) V c 3 t

/-- The block indices at a point: the row blocks and the first output's block move with the point, the weights, the
    bias and the two one-row outputs stay at block 0. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

private theorem N50 : cfg0.N = 50 := N_0

/-- Row r of the node block at point t is row 16000 t + r of the node rows. -/
private theorem blkG_apply (c : Dev nD) (t : Fin cfg0.N) (r : Fin 16000) (k : Fin 4) (hr : 16000 * t.val + r.val < 800000) :
    blkG V c t (ix2 r k) = inG V c (ix2 ⟨16000 * t.val + r.val, hr⟩ k) := by
  obtain ⟨e0, e1, -⟩ := idx_facts t
  unfold blkG iblk0
  rw [View.read_apply]
  show V c main_v4 _ = V c main_v4 _
  congr 1
  funext a
  apply Fin.ext
  match a with
  | ⟨0, _⟩ => show win0_0.index t (0 : Fin 2) * 16000 + 1 * r.val = 16000 * t.val + r.val; rw [e0]; omega
  | ⟨1, _⟩ => show win0_0.index t (1 : Fin 2) * 4 + 1 * k.val = k.val; rw [e1]; omega

/-- Row r of the attribute block at point t is row 16000 t + r of the attributes. -/
private theorem blkA_apply (c : Dev nD) (t : Fin cfg0.N) (r : Fin 16000) (k : Fin 84) (hr : 16000 * t.val + r.val < 800000) :
    blkA V c t (ix2 r k) = inA V c (ix2 ⟨16000 * t.val + r.val, hr⟩ k) := by
  obtain ⟨-, -, e0, e1, -⟩ := idx_facts t
  unfold blkA iblk0
  rw [View.read_apply]
  show V c main_arg2 _ = V c main_arg2 _
  congr 1
  funext a
  apply Fin.ext
  match a with
  | ⟨0, _⟩ => show win0_1.index t (0 : Fin 2) * 16000 + 1 * r.val = 16000 * t.val + r.val; rw [e0]; omega
  | ⟨1, _⟩ => show win0_1.index t (1 : Fin 2) * 84 + 1 * k.val = k.val; rw [e1]; omega

/-- The weight block at any point is the whole weight array. -/
private theorem blkW_apply (c : Dev nD) (t : Fin cfg0.N) (k : Fin 88) (j : Fin 128) :
    blkW V c t (ix2 k j) = inW V c (ix2 k j) := by
  obtain ⟨-, -, -, -, e0, e1, -⟩ := idx_facts t
  unfold blkW iblk0
  rw [View.read_apply]
  show V c main_arg3 _ = V c main_arg3 _
  congr 1
  funext a
  apply Fin.ext
  match a with
  | ⟨0, _⟩ => show win0_2.index t (0 : Fin 2) * 88 + 1 * k.val = k.val; rw [e0]; omega
  | ⟨1, _⟩ => show win0_2.index t (1 : Fin 2) * 128 + 1 * j.val = j.val; rw [e1]; omega

/-- The bias block at any point is the whole bias row. -/
private theorem blkB_apply (c : Dev nD) (t : Fin cfg0.N) (j : Fin 128) :
    blkB V c t (ix2 0 j) = inB V c (ix2 0 j) := by
  obtain ⟨-, -, -, -, -, -, e0, e1, -⟩ := idx_facts t
  unfold blkB iblk0
  rw [View.read_apply]
  show V c main_v5 _ = V c main_v5 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * j.val = j.val; rw [e1]; omega

/-! ## The edge layer of a block -/

/-- The edge layer of row n, column j, as a function of every natural n: zero past the last row. -/
private def Hn (c : Dev nD) (j : Fin 128) (n : ℕ) : EReal := if h : n < 800000 then H V c ⟨n, h⟩ j else 0

private theorem Hn_of_lt (c : Dev nD) (j : Fin 128) (e : Fin 800000) : Hn V c j e.val = H V c e j := by
  unfold Hn; rw [dif_pos e.isLt]

/-- Its square. -/
private def HnSq (c : Dev nD) (j : Fin 128) (n : ℕ) : EReal := Hn V c j n * Hn V c j n

private theorem HnSq_of_lt (c : Dev nD) (j : Fin 128) (e : Fin 800000) : HnSq V c j e.val = H V c e j * H V c e j := by
  unfold HnSq; rw [Hn_of_lt]

/-- The edge layer of the blocks at point t, at row r, is the edge layer of row 16000 t + r: it reads only row r of the
    two row blocks, and the weights and the bias whole. -/
private theorem lin_blk (c : Dev nD) (t : Fin cfg0.N) (r : Fin 16000) (j : Fin 128) :
    EdgeBn.lin (blkG V c t) (blkA V c t) (blkW V c t) (fun j => blkB V c t (ix2 0 j)) r j
      = Hn V c j (16000 * t.val + r.val) := by
  have ht : t.val < 50 := lt_of_lt_of_eq t.isLt N50
  have hr : 16000 * t.val + r.val < 800000 := by have := r.isLt; omega
  unfold Hn
  rw [dif_pos hr]
  unfold H EdgeBn.lin
  show _ + blkB V c t (ix2 0 j) = _ + inB V c (ix2 0 j)
  rw [blkB_apply]
  congr 1
  refine Finset.sum_congr rfl fun k _ => ?_
  rw [blkW_apply]
  congr 1
  unfold EdgeBn.feat88
  by_cases hk : k.val < 4
  · rw [dif_pos hk, dif_pos hk, blkG_apply V c t r _ hr]
  · rw [dif_neg hk, dif_neg hk, blkA_apply V c t r _ hr]

/-- The column sum of the block at point s, and of its squares. -/
private def colSum (c : Dev nD) (j : Fin 128) (s : ℕ) : EReal := ∑ r ∈ Finset.range 16000, Hn V c j (16000 * s + r)
private def colSumSq (c : Dev nD) (j : Fin 128) (s : ℕ) : EReal := ∑ r ∈ Finset.range 16000, HnSq V c j (16000 * s + r)

private theorem sum_lin_blk (c : Dev nD) (t : Fin cfg0.N) (j : Fin 128) :
    ∑ r : Fin 16000, EdgeBn.lin (blkG V c t) (blkA V c t) (blkW V c t) (fun j => blkB V c t (ix2 0 j)) r j
      = colSum V c j t.val := by
  unfold colSum
  rw [← Fin.sum_univ_eq_sum_range (fun r => Hn V c j (16000 * t.val + r)) 16000]
  exact Finset.sum_congr rfl fun r _ => lin_blk V c t r j

private theorem sum_lin_blk_sq (c : Dev nD) (t : Fin cfg0.N) (j : Fin 128) :
    ∑ r : Fin 16000, EdgeBn.lin (blkG V c t) (blkA V c t) (blkW V c t) (fun j => blkB V c t (ix2 0 j)) r j
        * EdgeBn.lin (blkG V c t) (blkA V c t) (blkW V c t) (fun j => blkB V c t (ix2 0 j)) r j
      = colSumSq V c j t.val := by
  unfold colSumSq
  rw [← Fin.sum_univ_eq_sum_range (fun r => HnSq V c j (16000 * t.val + r)) 16000]
  exact Finset.sum_congr rfl fun r _ => by rw [lin_blk V c t r j]; rfl

/-! ## What the three output buffers hold after each point -/

/-- After any point the first output's buffer holds the edge layer of that point's blocks. -/
private theorem outs_fst (c : Dev nD) (t : Fin cfg0.N) :
    (outsAt0 (F := Ideal) V c t.val t.isLt).1
      = k0_pay3 (F := Ideal) (blkG V c t) (blkA V c t) (blkW V c t) (blkB V c t) := by
  by_cases h0 : t.val % 50 = 0
  · rw [outsAt0_A V c t h0]
    dsimp only
    exact R0Pieces.out_A_4 ..
  · rw [outsAt0_B V c t h0]
    dsimp only
    exact R0Pieces.out_B_4 ..

/-- After point n the second output's row holds the column sums of the blocks of points 0 … n, and the third the
    column sums of their squares. -/
private theorem outs_acc (c : Dev nD) (j : Fin 128) : ∀ (n : ℕ) (hn : n < cfg0.N),
    ((outsAt0 (F := Ideal) V c n hn).2.1 : S1x128.Idx → EReal) (ix2 0 j) = ∑ s ∈ Finset.range (n + 1), colSum V c j s
    ∧ ((outsAt0 (F := Ideal) V c n hn).2.2 : S1x128.Idx → EReal) (ix2 0 j) = ∑ s ∈ Finset.range (n + 1), colSumSq V c j s
  | 0, hn => by
    rw [outsAt0_A V c ⟨0, hn⟩ rfl]
    dsimp only
    rw [R0Pieces.out_A_5, R0Pieces.out_A_6, Finset.sum_range_one, Finset.sum_range_one]
    constructor
    · refine (R0Pay.pay4_apply _ _ _ _ _ j).trans ?_
      rw [R0Pay.pay1_apply, zero_add]
      exact sum_lin_blk V c ⟨0, hn⟩ j
    · refine (R0Pay.pay5_apply _ _ _ _ _ j).trans ?_
      rw [R0Pay.pay2_apply, zero_add]
      exact sum_lin_blk_sq V c ⟨0, hn⟩ j
  | n + 1, hn => by
    have hN : cfg0.N = 50 := N50
    have hB : ¬(⟨n + 1, hn⟩ : Fin cfg0.N).val % 50 = 0 := by dsimp only; omega
    obtain ⟨ih1, ih2⟩ := outs_acc c j n (Nat.lt_of_succ_lt hn)
    rw [outsAt0_B V c ⟨n + 1, hn⟩ hB]
    dsimp only
    rw [R0Pieces.out_B_5, R0Pieces.out_B_6, Finset.sum_range_succ _ (n + 1), Finset.sum_range_succ _ (n + 1)]
    constructor
    · refine (R0Pay.pay4_apply _ _ _ _ _ j).trans ?_
      rw [sum_lin_blk V c ⟨n + 1, hn⟩ j]
      exact congrArg (· + colSum V c j (n + 1)) ih1
    · refine (R0Pay.pay5_apply _ _ _ _ _ j).trans ?_
      rw [sum_lin_blk_sq V c ⟨n + 1, hn⟩ j]
      exact congrArg (· + colSumSq V c j (n + 1)) ih2

/-! ## The arrays the region leaves -/

/-- What each point writes back to the first output is its block of the edge layer. -/
private theorem flushed4_eq (c : Dev nD) (t : Fin cfg0.N) (hf : (cfg0.win 4).flush t = true) :
    (dat0 (F := Ideal) V c).flushed 4 t
      = ((cfg0.win 4).blk t).view.read (Elt Ideal) (EdgeBn.ofEntries (H V c)) := by
  have ht : t.val < 50 := lt_of_lt_of_eq t.isLt N50
  obtain ⟨-, -, -, -, -, -, -, -, e0, e1, -⟩ := idx_facts t
  show (cfg0.win 4).cut (grid0.coords t) ((dat0 (F := Ideal) V c).after 4 t) = _
  rw [after0_4, outs_fst]
  refine funext fun (y : S16000x128.Idx) => ?_
  obtain ⟨r, j, rfl⟩ : ∃ (r : Fin 16000) (j : Fin 128), y = ix2 r j := ⟨y 0, y 1, eq_ix2 y⟩
  have hr : 16000 * t.val + r.val < 800000 := by have := r.isLt; omega
  rw [View.read_apply]
  show (k0_pay3 (F := Ideal) (blkG V c t) (blkA V c t) (blkW V c t) (blkB V c t) : S16000x128.Idx → EReal) (ix2 r j)
    = EdgeBn.ofEntries (H V c) (((cfg0.win 4).blk t).view.emb (ix2 r j))
  rw [R0Pay.pay3_apply, lin_blk]
  have hemb : ((cfg0.win 4).blk t).view.emb (ix2 r j) = (ix2 ⟨16000 * t.val + r.val, hr⟩ j : S800000x128.Idx) := by
    funext a
    apply Fin.ext
    match a with
    | ⟨0, _⟩ => show win0_4.index t (0 : Fin 2) * 16000 + 1 * r.val = 16000 * t.val + r.val; rw [e0]; omega
    | ⟨1, _⟩ => show win0_4.index t (1 : Fin 2) * 128 + 1 * j.val = j.val; rw [e1]; omega
  rw [hemb, EdgeBn.ofEntries_apply]
  exact Hn_of_lt V c j ⟨_, hr⟩

/-- An entry is in point t's block of the first output iff its row is among the block's 16000. -/
private theorem mem_blk4 (t : Fin cfg0.N) (i : S800000x128.Idx) :
    i ∈ ((cfg0.win 4).blk t).view.set ↔ ∀ a : Fin 2, win0_4.index t a * S16000x128.size a ≤ (i a).val
      ∧ (i a).val < win0_4.index t a * S16000x128.size a + S16000x128.size a := by
  show i ∈ ((View.whole main_v6_0).slice (win0_4.rect t)).set ↔ _
  rw [View.set_slice_whole, Rect.mem_set_unit]
  exact Iff.rfl

/-- Every entry of the first output is in the block of the point its row's quotient by 16000 names. -/
private theorem cover4 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hq : (i 0).val / 16000 < cfg0.N := by rw [N50]; omega
  obtain ⟨-, -, -, -, -, -, -, -, e0, e1, -⟩ := idx_facts ⟨(i 0).val / 16000, hq⟩
  refine ⟨⟨(i 0).val / 16000, hq⟩, flush0_4 _, ?_⟩
  rw [mem_blk4]
  intro a
  match a with
  | ⟨0, _⟩ =>
    show win0_4.index ⟨(i 0).val / 16000, hq⟩ (0 : Fin 2) * 16000 ≤ (i 0).val
      ∧ (i 0).val < win0_4.index ⟨(i 0).val / 16000, hq⟩ (0 : Fin 2) * 16000 + 16000
    rw [e0]
    show (i 0).val / 16000 * 16000 ≤ (i 0).val ∧ (i 0).val < (i 0).val / 16000 * 16000 + 16000
    omega
  | ⟨1, _⟩ =>
    show win0_4.index ⟨(i 0).val / 16000, hq⟩ (1 : Fin 2) * 128 ≤ (i 1).val
      ∧ (i 1).val < win0_4.index ⟨(i 0).val / 16000, hq⟩ (1 : Fin 2) * 128 + 128
    rw [e1]
    omega

/-- The first output ends as the edge layer, entry by entry. -/
theorem arr4 (c : Dev nD) (e : Fin 800000) (j : Fin 128) : outH V c (ix2 e j) = H V c e j := by
  have h := (dat0 (F := Ideal) V c).arrAt_eq_of_cover 4 (EdgeBn.ofEntries (H V c)) (flushed4_eq V c) cover4
  exact (congrFun h (ix2 e j)).trans (EdgeBn.ofEntries_apply _ e j)

/-- The last point of the grid. -/
private def tLast : Fin cfg0.N := ⟨49, by rw [N50]; decide⟩

/-- The one-row outputs' blocks are their whole arrays at every point. -/
private theorem flushed5_eq (c : Dev nD) (t : Fin cfg0.N) (hf : (cfg0.win 5).flush t = true) :
    (dat0 (F := Ideal) V c).flushed 5 t
      = ((cfg0.win 5).blk t).view.read (Elt Ideal) (outsAt0 (F := Ideal) V c tLast.val tLast.isLt).2.1 := by
  have hN := N50
  have h49 : t.val = 49 := by have := (flush0_5 t).mp hf; have := t.isLt; omega
  obtain rfl : t = tLast := Fin.ext h49
  obtain ⟨-, -, -, -, -, -, -, -, -, -, e0, e1, -⟩ := idx_facts tLast
  show (cfg0.win 5).cut (grid0.coords tLast) ((dat0 (F := Ideal) V c).after 5 tLast) = _
  rw [after0_5]
  have hz' : (fun a => win0_5.index tLast a * main_v6_1.ty.shape.size a) = fun _ => 0 := funext fun a => by
    match a with
    | ⟨0, _⟩ => show win0_5.index tLast (0 : Fin 2) * 1 = 0; rw [e0]
    | ⟨1, _⟩ => show win0_5.index tLast (1 : Fin 2) * 128 = 0; rw [e1]
  exact (Memref.read_access_unit_zero (Elt Ideal) main_v6_1 hz' (fun a => by rw [congrFun hz' a]; simp) _).symm

private theorem flushed6_eq (c : Dev nD) (t : Fin cfg0.N) (hf : (cfg0.win 6).flush t = true) :
    (dat0 (F := Ideal) V c).flushed 6 t
      = ((cfg0.win 6).blk t).view.read (Elt Ideal) (outsAt0 (F := Ideal) V c tLast.val tLast.isLt).2.2 := by
  have hN := N50
  have h49 : t.val = 49 := by have := (flush0_6 t).mp hf; have := t.isLt; omega
  obtain rfl : t = tLast := Fin.ext h49
  obtain ⟨-, -, -, -, -, -, -, -, -, -, -, -, e0, e1⟩ := idx_facts tLast
  show (cfg0.win 6).cut (grid0.coords tLast) ((dat0 (F := Ideal) V c).after 6 tLast) = _
  rw [after0_6]
  have hz' : (fun a => win0_6.index tLast a * main_v6_2.ty.shape.size a) = fun _ => 0 := funext fun a => by
    match a with
    | ⟨0, _⟩ => show win0_6.index tLast (0 : Fin 2) * 1 = 0; rw [e0]
    | ⟨1, _⟩ => show win0_6.index tLast (1 : Fin 2) * 128 = 0; rw [e1]
  exact (Memref.read_access_unit_zero (Elt Ideal) main_v6_2 hz' (fun a => by rw [congrFun hz' a]; simp) _).symm

/-- The last point's block of a one-row output is the whole row. -/
private theorem cover5 (i : S1x128.Idx) :
    ∃ t : Fin cfg0.N, (cfg0.win 5).flush t = true ∧ i ∈ ((cfg0.win 5).blk t).view.set := by
  obtain ⟨-, -, -, -, -, -, -, -, -, -, e0, e1, -⟩ := idx_facts tLast
  refine ⟨tLast, (flush0_5 tLast).mpr rfl, ?_⟩
  show i ∈ ((View.whole main_v6_1).slice (win0_5.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win0_5.index tLast (0 : Fin 2) * 1 ≤ (i 0 : Nat) ∧ (i 0 : Nat) < win0_5.index tLast (0 : Fin 2) * 1 + 1
    rw [e0]; omega
  | ⟨1, _⟩ =>
    show win0_5.index tLast (1 : Fin 2) * 128 ≤ (i 1 : Nat) ∧ (i 1 : Nat) < win0_5.index tLast (1 : Fin 2) * 128 + 128
    rw [e1]; omega

private theorem cover6 (i : S1x128.Idx) :
    ∃ t : Fin cfg0.N, (cfg0.win 6).flush t = true ∧ i ∈ ((cfg0.win 6).blk t).view.set := by
  obtain ⟨-, -, -, -, -, -, -, -, -, -, -, -, e0, e1⟩ := idx_facts tLast
  refine ⟨tLast, (flush0_6 tLast).mpr rfl, ?_⟩
  show i ∈ ((View.whole main_v6_2).slice (win0_6.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win0_6.index tLast (0 : Fin 2) * 1 ≤ (i 0 : Nat) ∧ (i 0 : Nat) < win0_6.index tLast (0 : Fin 2) * 1 + 1
    rw [e0]; omega
  | ⟨1, _⟩ =>
    show win0_6.index tLast (1 : Fin 2) * 128 ≤ (i 1 : Nat) ∧ (i 1 : Nat) < win0_6.index tLast (1 : Fin 2) * 128 + 128
    rw [e1]; omega

/-- Summing m consecutive runs of b terms is summing the first b m terms. -/
private theorem sum_blocks (f : ℕ → EReal) (b : ℕ) : ∀ m : ℕ,
    ∑ s ∈ Finset.range m, ∑ r ∈ Finset.range b, f (b * s + r) = ∑ n ∈ Finset.range (b * m), f n
  | 0 => by rw [Finset.sum_range_zero, Nat.mul_zero, Finset.sum_range_zero]
  | m + 1 => by rw [Finset.sum_range_succ, sum_blocks f b m, Nat.mul_succ, Finset.sum_range_add]

/-- The 50 blocks' column sums add up to the column sum over all 800000 rows. -/
private theorem sum_all (c : Dev nD) (j : Fin 128) : ∑ s ∈ Finset.range 50, colSum V c j s = ∑ e : Fin 800000, H V c e j := by
  have h : 16000 * 50 = 800000 := by norm_num
  unfold colSum
  rw [sum_blocks (Hn V c j) 16000 50, h, ← Fin.sum_univ_eq_sum_range (Hn V c j) 800000]
  exact Finset.sum_congr rfl fun e _ => Hn_of_lt V c j e

private theorem sum_all_sq (c : Dev nD) (j : Fin 128) :
    ∑ s ∈ Finset.range 50, colSumSq V c j s = ∑ e : Fin 800000, H V c e j * H V c e j := by
  have h : 16000 * 50 = 800000 := by norm_num
  unfold colSumSq
  rw [sum_blocks (HnSq V c j) 16000 50, h, ← Fin.sum_univ_eq_sum_range (HnSq V c j) 800000]
  exact Finset.sum_congr rfl fun e _ => HnSq_of_lt V c j e

/-- The second output ends as the edge layer's column sums. -/
theorem arr5 (c : Dev nD) (j : Fin 128) : outS V c (ix2 0 j) = ∑ e : Fin 800000, H V c e j := by
  have h := (dat0 (F := Ideal) V c).arrAt_eq_of_cover 5 (outsAt0 (F := Ideal) V c tLast.val tLast.isLt).2.1
    (flushed5_eq V c) cover5
  refine (congrFun h (ix2 0 j)).trans ?_
  exact ((outs_acc V c j tLast.val tLast.isLt).1).trans (sum_all V c j)

/-- The third output ends as the column sums of the edge layer's squares. -/
theorem arr6 (c : Dev nD) (j : Fin 128) : outSS V c (ix2 0 j) = ∑ e : Fin 800000, H V c e j * H V c e j := by
  have h := (dat0 (F := Ideal) V c).arrAt_eq_of_cover 6 (outsAt0 (F := Ideal) V c tLast.val tLast.isLt).2.2
    (flushed6_eq V c) cover6
  refine (congrFun h (ix2 0 j)).trans ?_
  exact ((outs_acc V c j tLast.val tLast.isLt).2).trans (sum_all_sq V c j)

end Cert.KernelIdeal.R0

end
-- ==== Proof.Region1.lean ====
/-
  The second grid region (the affine normalisation), as an array.

  At each of its 50 points the region reads a block of 16000 edge rows, the one-row scale and the one-row shift, and
  writes the block's rows times the scale plus the shift. The 50 blocks tile the 800000 rows, so the array the region
  leaves is, entry (e, j), the entered array's entry (e, j) times the scale's entry j plus the shift's entry j.
-/
import proofs.«400937_j23630910063281_1_alg».proof.Proof.Gen.KernelIdeal.Frame
import proofs.«400937_j23630910063281_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-- The entered edge-layer array, the scale row and the shift row, and the array the region leaves. -/
abbrev inH (c : Dev nD) : S800000x128.Idx → EReal := V c main_v6_0
abbrev inScale (c : Dev nD) : S1x128.Idx → EReal := V c main_v21
abbrev inShift (c : Dev nD) : S1x128.Idx → EReal := V c main_v22
abbrev out (c : Dev nD) : S800000x128.Idx → EReal := (dat1 (F := Ideal) V c).arrAt 3 cfg1.N

/-- Both coordinates of a zero offset are zero. -/
theorem hz : (![0, 0] : Fin 2 → Nat) = fun _ => 0 := funext fun a => by
  match a with
  | ⟨0, _⟩ => rfl
  | ⟨1, _⟩ => rfl

/-! ## What a point computes, entry by entry -/

/-- Entry (r, j) of the point's result: the block's entry times the scale row's entry j, plus the shift row's. -/
theorem pay_apply (h : Vec Ideal S16000x128 .f32) (s t : Vec Ideal S1x128 .f32) (r : Fin 16000) (j : Fin 128) :
    k1_pay1 (F := Ideal) h s t (ix2 r j) = h (ix2 r j) * s (ix2 0 j) + t (ix2 0 j) := by
  unfold k1_pay1
  simp only [shapeCast_self]
  rw [addf_apply, mulf_apply, broadcastTo_1b_ab_apply, broadcastTo_1b_ab_apply]

/-- The same at any index of the block. -/
theorem pay_at (h : Vec Ideal S16000x128 .f32) (s t : Vec Ideal S1x128 .f32) (y : S16000x128.Idx) :
    k1_pay1 (F := Ideal) h s t y = h y * s (ix2 0 (y 1)) + t (ix2 0 (y 1)) := by
  obtain ⟨r, j, rfl⟩ : ∃ (r : Fin 16000) (j : Fin 128), y = ix2 r j := ⟨y 0, y 1, eq_ix2 y⟩
  exact pay_apply h s t r j

/-! ## The blocks a point reads, as parts of the entered arrays -/

/-- The block index of each window at a point: the row blocks move with the point, the one-row arrays stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three blocks point t reads: 16000 rows of the edge layer, the scale row, the shift row. -/
abbrev blkH (c : Dev nD) (t : Fin cfg1.N) : S16000x128.Idx → EReal := iblk1 (F := Ideal) V c 0 t
abbrev blkS (c : Dev nD) (t : Fin cfg1.N) : S1x128.Idx → EReal := iblk1 (F := Ideal) V c 1 t
abbrev blkT (c : Dev nD) (t : Fin cfg1.N) : S1x128.Idx → EReal := iblk1 (F := Ideal) V c 2 t

/-- Row r of point t's block is row 16000 t + r of the entered array. -/
theorem blkH_apply (c : Dev nD) (t : Fin cfg1.N) (x : S16000x128.Idx) (k : S800000x128.Idx)
    (h0 : (k 0).val = 16000 * t.val + (x 0).val) (h1 : (k 1).val = (x 1).val) :
    blkH V c t x = inH V c k := by
  obtain ⟨e0, e1, -⟩ := idx_facts t
  unfold blkH iblk1
  rw [View.read_apply]
  show V c main_v6_0 _ = V c main_v6_0 _
  congr 1
  funext a
  apply Fin.ext
  match a with
  | ⟨0, _⟩ => show win1_0.index t (0 : Fin 2) * 16000 + 1 * (x 0).val = (k 0).val; rw [e0, h0]; omega
  | ⟨1, _⟩ => show win1_0.index t (1 : Fin 2) * 128 + 1 * (x 1).val = (k 1).val; rw [e1, h1]; omega

/-- The scale row's block is the whole scale row, at every point. -/
theorem blkS_apply (c : Dev nD) (t : Fin cfg1.N) (x k : S1x128.Idx) (h1 : (k 1).val = (x 1).val) :
    blkS V c t x = inScale V c k := by
  obtain ⟨-, -, e0, e1, -⟩ := idx_facts t
  have hx := idx2_lt0 x
  have hk := idx2_lt0 k
  unfold blkS iblk1
  rw [View.read_apply]
  show V c main_v21 _ = V c main_v21 _
  congr 1
  funext a
  apply Fin.ext
  match a with
  | ⟨0, _⟩ => show win1_1.index t (0 : Fin 2) * 1 + 1 * (x 0).val = (k 0).val; rw [e0]; omega
  | ⟨1, _⟩ => show win1_1.index t (1 : Fin 2) * 128 + 1 * (x 1).val = (k 1).val; rw [e1, h1]; omega

/-- The shift row's block is the whole shift row, at every point. -/
theorem blkT_apply (c : Dev nD) (t : Fin cfg1.N) (x k : S1x128.Idx) (h1 : (k 1).val = (x 1).val) :
    blkT V c t x = inShift V c k := by
  obtain ⟨-, -, -, -, e0, e1, -⟩ := idx_facts t
  have hx := idx2_lt0 x
  have hk := idx2_lt0 k
  unfold blkT iblk1
  rw [View.read_apply]
  show V c main_v22 _ = V c main_v22 _
  congr 1
  funext a
  apply Fin.ext
  match a with
  | ⟨0, _⟩ => show win1_2.index t (0 : Fin 2) * 1 + 1 * (x 0).val = (k 0).val; rw [e0]; omega
  | ⟨1, _⟩ => show win1_2.index t (1 : Fin 2) * 128 + 1 * (x 1).val = (k 1).val; rw [e1, h1]; omega

/-! ## From the blocks to the array -/

/-- The array the region leaves, as a function of the entered arrays. -/
def G (c : Dev nD) : S800000x128.Idx → EReal :=
  EdgeBn.ofEntries fun e j => inH V c (ix2 e j) * inScale V c (ix2 0 j) + inShift V c (ix2 0 j)

/-- What point t writes back is its block of that array. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S16000x128) hz, View.ld_unit_zero (S := S1x128) hz]
  obtain ⟨-, -, -, -, -, -, e0, e1⟩ := idx_facts t
  funext y
  show k1_pay1 (F := Ideal) (blkH V c t) (blkS V c t) (blkT V c t) ((cfg1.win 3).xinj (grid1.coords t) y)
    = G V c (((cfg1.win 3).blk t).view.emb y)
  refine (pay_at _ _ _ _).trans ?_
  have hy0 : (y 0).val < 16000 := (y 0).isLt
  have hy1 : (y 1).val < 128 := (y 1).isLt
  have k0 : ((((cfg1.win 3).blk t).view.emb y) 0).val = 16000 * t.val + (y 0).val := by
    show win1_3.index t (0 : Fin 2) * 16000 + 1 * (y 0).val = _; rw [e0]; omega
  have k1 : ((((cfg1.win 3).blk t).view.emb y) 1).val = (y 1).val := by
    show win1_3.index t (1 : Fin 2) * 128 + 1 * (y 1).val = _; rw [e1]; omega
  unfold G EdgeBn.ofEntries
  refine congrArg₂ (· + ·) (congrArg₂ (· * ·) (blkH_apply V c t _ _ k0 k1) (blkS_apply V c t _ _ k1)) (blkT_apply V c t _ _ k1)

/-- An index is in point t's block exactly when each coordinate is in the block's range on its axis. -/
theorem mem_blk (t : Fin cfg1.N) (i : S800000x128.Idx) :
    i ∈ ((cfg1.win 3).blk t).view.set ↔ ∀ a : Fin 2, win1_3.index t a * S16000x128.size a ≤ (i a).val
      ∧ (i a).val < win1_3.index t a * S16000x128.size a + S16000x128.size a := by
  show i ∈ ((View.whole main_v23).slice (win1_3.rect t)).set ↔ _
  rw [View.set_slice_whole, Rect.mem_set_unit]
  exact Iff.rfl

/-- Row e lies in the block of point e / 16000: the 50 blocks tile the 800000 rows. -/
theorem cover (i : S800000x128.Idx) :
    ∃ t : Fin cfg1.N, (cfg1.win 3).flush t = true ∧ i ∈ ((cfg1.win 3).blk t).view.set := by
  have hi0 : (i 0).val < 800000 := idx2_lt0 i
  have hi1 : (i 1).val < 128 := idx2_lt1 i
  obtain ⟨t, ht⟩ : ∃ t : Fin cfg1.N, t.val = (i 0).val / 16000 :=
    ⟨⟨(i 0).val / 16000, by show _ < grid1.N; rw [N_1]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 16000 ≤ (i 0).val ∧ (i 0).val < win1_3.index t (0 : Fin 2) * 16000 + 16000
    rw [e0, ht]; omega
  | ⟨1, _⟩ =>
    show win1_3.index t (1 : Fin 2) * 128 ≤ (i 1).val ∧ (i 1).val < win1_3.index t (1 : Fin 2) * 128 + 128
    rw [e1]; omega

/-- The array the second region leaves, entry by entry. -/
theorem arr3 (c : Dev nD) (e : Fin 800000) (j : Fin 128) :
    out V c (ix2 e j) = inH V c (ix2 e j) * inScale V c (ix2 0 j) + inShift V c (ix2 0 j) := by
  have h : out V c = G V c :=
    (dat1 V c).arrAt_eq_of_cover 3 (G V c) (fun t _ => flushed_eq V c t) cover
  exact congrFun h (ix2 e j)

end Cert.KernelIdeal.R1

end
-- ==== Proof.Region2.lean ====
/-
  The third grid region (the node layer), as an array.

  At each of its 5 points the region reads a block of 10000 node rows (4 features), the same rows of the aggregated edge
  features (128 features), the whole 132 x 64 weight array and the one-row bias; it joins the two row blocks side by
  side, multiplies by the weights into a zero accumulator, adds the bias and clamps at zero. The 5 blocks tile the 50000
  rows, so the array the region leaves is, entry (n, j), the node layer of row n of the two entered arrays.
-/
import proofs.«400937_j23630910063281_1_alg».proof.Proof.Gen.KernelIdeal.Frame
import proofs.«400937_j23630910063281_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«400937_j23630910063281_1_alg».proof.Proof.LibPlainMatmul
set_option maxRecDepth 16384

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-- The entered node table, aggregated edge features, weights and bias row, and the array the region leaves. -/
abbrev inX (c : Dev nD) : S50000x4.Idx → EReal := V c main_arg0
abbrev inAgg (c : Dev nD) : S50000x128.Idx → EReal := V c main_v34
abbrev inW (c : Dev nD) : S132x64.Idx → EReal := V c main_arg7
abbrev inB (c : Dev nD) : S1x64.Idx → EReal := V c main_v35
abbrev out (c : Dev nD) : S50000x64.Idx → EReal := (dat2 (F := Ideal) V c).arrAt 4 cfg2.N

/-- Both coordinates of a zero offset are zero. -/
theorem hz : (![0, 0] : Fin 2 → Nat) = fun _ => 0 := funext fun a => by
  match a with
  | ⟨0, _⟩ => rfl
  | ⟨1, _⟩ => rfl

/-! ## What a point computes, entry by entry -/

/-- The joined row block at (r, k): column k of the 4 node features when k < 4, else column k - 4 of the 128 others. -/
theorem row_apply (u : Vec Ideal S10000x4 .f32) (v : Vec Ideal S10000x128 .f32)
    (h : Shape.Concatenates [S10000x4, S10000x128] S10000x132 1) (r : Fin 10000) (k : Fin 132) :
    concatenate S10000x132 1 [⟨S10000x4, u⟩, ⟨S10000x128, v⟩] h (ix2 r k) = EdgeBn.feat132 u v r k := by
  unfold EdgeBn.feat132
  by_cases hk : k.val < 4
  · rw [dif_pos hk]
    refine concatenate_pair_apply_left _ u v h (ix2 r k) rfl (ix2 r ⟨k.val, hk⟩) fun b => ?_
    match b with
    | ⟨0, _⟩ => rfl
    | ⟨1, _⟩ => rfl
  · rw [dif_neg hk]
    refine concatenate_pair_apply_right _ u v h (ix2 r k) rfl rfl
      (ix2 r ⟨k.val - 4, by have := k.isLt; omega⟩) (fun b hb => ?_) ?_
    · match b with
      | ⟨0, _⟩ => rfl
      | ⟨1, _⟩ => exact absurd rfl hb
    · show k.val - 4 + 4 = k.val
      omega

/-- The contraction is the plain one: the left operand's columns against the right operand's rows. -/
theorem dot_plain : dot_S10000x132_S132x64_S10000x64_1_0_0_1_n_n = DotDims.plain 10000 132 64 := rfl

/-- Entry (r, j) of the point's result: the node layer of row r of the two row blocks. -/
theorem pay_apply (x : Vec Ideal S10000x4 .f32) (a : Vec Ideal S10000x128 .f32) (W : Vec Ideal S132x64 .f32)
    (b : Vec Ideal S1x64 .f32) (r : Fin 10000) (j : Fin 64) :
    k2_pay1 (F := Ideal) x a W b (ix2 r j) = EdgeBn.mlp x a W (fun j => b (ix2 0 j)) r j := by
  unfold k2_pay1 EdgeBn.mlp
  simp only [shapeCast_self]
  rw [maximumf_apply, broadcast_apply, addf_apply, broadcastTo_1b_ab_apply]
  rw [shapeCast_self a]
  refine congrArg₂ max (congrArg (· + b (ix2 0 j)) ?_) Ideal.ofBits_zero_f32
  refine (Cert.PlainMatmul.apply none _ W r j).trans ?_
  exact Finset.sum_congr rfl fun k _ => by rw [row_apply]

/-- The same at any index of the block. -/
theorem pay_at (x : Vec Ideal S10000x4 .f32) (a : Vec Ideal S10000x128 .f32) (W : Vec Ideal S132x64 .f32)
    (b : Vec Ideal S1x64 .f32) (y : S10000x64.Idx) :
    k2_pay1 (F := Ideal) x a W b y = EdgeBn.mlp x a W (fun j => b (ix2 0 j)) (y 0) (y 1) := by
  obtain ⟨r, j, rfl⟩ : ∃ (r : Fin 10000) (j : Fin 64), y = ix2 r j := ⟨y 0, y 1, eq_ix2 y⟩
  exact pay_apply x a W b r j

/-! ## The blocks a point reads, as parts of the entered arrays -/

/-- The block index of each window at a point: the row blocks move with the point, the weights and the bias row stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The four blocks point t reads: 10000 node rows, the same rows of the aggregated features, the weights, the bias row. -/
abbrev blkX (c : Dev nD) (t : Fin cfg2.N) : S10000x4.Idx → EReal := iblk2 (F := Ideal) V c 0 t
abbrev blkA (c : Dev nD) (t : Fin cfg2.N) : S10000x128.Idx → EReal := iblk2 (F := Ideal) V c 1 t
abbrev blkW (c : Dev nD) (t : Fin cfg2.N) : S132x64.Idx → EReal := iblk2 (F := Ideal) V c 2 t
abbrev blkB (c : Dev nD) (t : Fin cfg2.N) : S1x64.Idx → EReal := iblk2 (F := Ideal) V c 3 t

/-- Row r of point t's node block is row 10000 t + r of the entered node table. -/
theorem blkX_apply (c : Dev nD) (t : Fin cfg2.N) (x : S10000x4.Idx) (k : S50000x4.Idx)
    (h0 : (k 0).val = 10000 * t.val + (x 0).val) (h1 : (k 1).val = (x 1).val) :
    blkX V c t x = inX V c k := by
  obtain ⟨e0, e1, -⟩ := idx_facts t
  unfold blkX iblk2
  rw [View.read_apply]
  show V c main_arg0 _ = V c main_arg0 _
  congr 1
  funext a
  apply Fin.ext
  match a with
  | ⟨0, _⟩ => show win2_0.index t (0 : Fin 2) * 10000 + 1 * (x 0).val = (k 0).val; rw [e0, h0]; omega
  | ⟨1, _⟩ => show win2_0.index t (1 : Fin 2) * 4 + 1 * (x 1).val = (k 1).val; rw [e1, h1]; omega

/-- Row r of point t's block of aggregated features is row 10000 t + r of the entered array. -/
theorem blkA_apply (c : Dev nD) (t : Fin cfg2.N) (x : S10000x128.Idx) (k : S50000x128.Idx)
    (h0 : (k 0).val = 10000 * t.val + (x 0).val) (h1 : (k 1).val = (x 1).val) :
    blkA V c t x = inAgg V c k := by
  obtain ⟨-, -, e0, e1, -⟩ := idx_facts t
  unfold blkA iblk2
  rw [View.read_apply]
  show V c main_v34 _ = V c main_v34 _
  congr 1
  funext a
  apply Fin.ext
  match a with
  | ⟨0, _⟩ => show win2_1.index t (0 : Fin 2) * 10000 + 1 * (x 0).val = (k 0).val; rw [e0, h0]; omega
  | ⟨1, _⟩ => show win2_1.index t (1 : Fin 2) * 128 + 1 * (x 1).val = (k 1).val; rw [e1, h1]; omega

/-- The weights' block is the whole weight array, at every point. -/
theorem blkW_apply (c : Dev nD) (t : Fin cfg2.N) (x k : S132x64.Idx)
    (h0 : (k 0).val = (x 0).val) (h1 : (k 1).val = (x 1).val) :
    blkW V c t x = inW V c k := by
  obtain ⟨-, -, -, -, e0, e1, -⟩ := idx_facts t
  unfold blkW iblk2
  rw [View.read_apply]
  show V c main_arg7 _ = V c main_arg7 _
  congr 1
  funext a
  apply Fin.ext
  match a with
  | ⟨0, _⟩ => show win2_2.index t (0 : Fin 2) * 132 + 1 * (x 0).val = (k 0).val; rw [e0, h0]; omega
  | ⟨1, _⟩ => show win2_2.index t (1 : Fin 2) * 64 + 1 * (x 1).val = (k 1).val; rw [e1, h1]; omega

/-- The bias row's block is the whole bias row, at every point. -/
theorem blkB_apply (c : Dev nD) (t : Fin cfg2.N) (x k : S1x64.Idx) (h1 : (k 1).val = (x 1).val) :
    blkB V c t x = inB V c k := by
  obtain ⟨-, -, -, -, -, -, e0, e1, -⟩ := idx_facts t
  have hx := idx2_lt0 x
  have hk := idx2_lt0 k
  unfold blkB iblk2
  rw [View.read_apply]
  show V c main_v35 _ = V c main_v35 _
  congr 1
  funext a
  apply Fin.ext
  match a with
  | ⟨0, _⟩ => show win2_3.index t (0 : Fin 2) * 1 + 1 * (x 0).val = (k 0).val; rw [e0]; omega
  | ⟨1, _⟩ => show win2_3.index t (1 : Fin 2) * 64 + 1 * (x 1).val = (k 1).val; rw [e1, h1]; omega

/-- The node layer of row r of point t's blocks is the node layer of row 10000 t + r of the entered arrays. -/
theorem mlp_block (c : Dev nD) (t : Fin cfg2.N) (r : Fin 10000) (n : Fin 50000) (j j' : Fin 64)
    (hn : n.val = 10000 * t.val + r.val) (hj : j' = j) :
    EdgeBn.mlp (blkX V c t) (blkA V c t) (blkW V c t) (fun j => blkB V c t (ix2 0 j)) r j
      = EdgeBn.mlp (inX V c) (inAgg V c) (inW V c) (fun j => inB V c (ix2 0 j)) n j' := by
  subst hj
  have hf : ∀ k : Fin 132, EdgeBn.feat132 (blkX V c t) (blkA V c t) r k = EdgeBn.feat132 (inX V c) (inAgg V c) n k := by
    intro k
    unfold EdgeBn.feat132
    by_cases hk : k.val < 4
    · rw [dif_pos hk, dif_pos hk]
      exact blkX_apply V c t _ _ hn rfl
    · rw [dif_neg hk, dif_neg hk]
      exact blkA_apply V c t _ _ hn rfl
  unfold EdgeBn.mlp
  exact congrArg (max · 0) (congrArg₂ (· + ·)
    (Finset.sum_congr rfl fun k _ => congrArg₂ (· * ·) (hf k) (blkW_apply V c t _ _ rfl rfl))
    (blkB_apply V c t _ _ rfl))

/-! ## From the blocks to the array -/

/-- The array the region leaves, as a function of the entered arrays. -/
def G (c : Dev nD) : S50000x64.Idx → EReal :=
  EdgeBn.ofEntries fun n j => EdgeBn.mlp (inX V c) (inAgg V c) (inW V c) (fun j => inB V c (ix2 0 j)) n j

/-- What point t writes back is its block of that array. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S10000x4) hz, View.ld_unit_zero (S := S10000x128) hz,
    View.ld_unit_zero (S := S132x64) hz, View.ld_unit_zero (S := S1x64) hz]
  obtain ⟨-, -, -, -, -, -, -, -, e0, e1⟩ := idx_facts t
  funext y
  show k2_pay1 (F := Ideal) (blkX V c t) (blkA V c t) (blkW V c t) (blkB V c t) ((cfg2.win 4).xinj (grid2.coords t) y)
    = G V c (((cfg2.win 4).blk t).view.emb y)
  refine (pay_at _ _ _ _ _).trans ?_
  have hy0 : (y 0).val < 10000 := (y 0).isLt
  have hy1 : (y 1).val < 64 := (y 1).isLt
  have k0 : ((((cfg2.win 4).blk t).view.emb y) 0).val = 10000 * t.val + (y 0).val := by
    show win2_4.index t (0 : Fin 2) * 10000 + 1 * (y 0).val = _; rw [e0]; omega
  have k1 : ((((cfg2.win 4).blk t).view.emb y) 1).val = (y 1).val := by
    show win2_4.index t (1 : Fin 2) * 64 + 1 * (y 1).val = _; rw [e1]; omega
  unfold G EdgeBn.ofEntries
  exact mlp_block V c t _ _ _ _ k0 (Fin.ext k1)

/-- An index is in point t's block exactly when each coordinate is in the block's range on its axis. -/
theorem mem_blk (t : Fin cfg2.N) (i : S50000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v36).slice (win2_4.rect t)).set ↔ _
  rw [View.set_slice_whole, Rect.mem_set_unit]
  exact Iff.rfl

/-- Row n lies in the block of point n / 10000: the 5 blocks tile the 50000 rows. -/
theorem cover (i : S50000x64.Idx) :
    ∃ t : Fin cfg2.N, (cfg2.win 4).flush t = true ∧ i ∈ ((cfg2.win 4).blk t).view.set := by
  have hi0 : (i 0).val < 50000 := idx2_lt0 i
  have hi1 : (i 1).val < 64 := idx2_lt1 i
  obtain ⟨t, ht⟩ : ∃ t : Fin cfg2.N, t.val = (i 0).val / 10000 :=
    ⟨⟨(i 0).val / 10000, by show _ < grid2.N; rw [N_2]; omega⟩, rfl⟩
  obtain ⟨-, -, -, -, -, -, -, -, e0, e1⟩ := idx_facts t
  refine ⟨t, flush2_4 t, ?_⟩
  rw [mem_blk]
  intro a
  match a with
  | ⟨0, _⟩ =>
    show win2_4.index t (0 : Fin 2) * 10000 ≤ (i 0).val ∧ (i 0).val < win2_4.index t (0 : Fin 2) * 10000 + 10000
    rw [e0, ht]; omega
  | ⟨1, _⟩ =>
    show win2_4.index t (1 : Fin 2) * 64 ≤ (i 1).val ∧ (i 1).val < win2_4.index t (1 : Fin 2) * 64 + 64
    rw [e1]; omega

/-- The array the third region leaves, entry by entry. -/
theorem arr4 (c : Dev nD) (n : Fin 50000) (j : Fin 64) :
    out V c (ix2 n j) = EdgeBn.mlp (inX V c) (inAgg V c) (inW V c) (fun j => inB V c (ix2 0 j)) n j := by
  have h : out V c = G V c :=
    (dat2 V c).arrAt_eq_of_cover 4 (G V c) (fun t _ => flushed_eq V c t) cover
  exact congrFun h (ix2 n j)

end Cert.KernelIdeal.R2

end
-- ==== Proof.KValue.lean ====
/-
  The kernel program's result, entry by entry, as a function of the launch memory.

  Walking the program backwards from its result: the third region's output is the node layer of [node table |
  scatter-mean of the second region's output]; the second region's output is, entry (e, j), the first region's edge
  layer at (e, j) times the scale of feature j plus its shift; scale and shift are computed from the column sums and
  the column sums of squares the first region leaves, which makes that entry the kernel's arrangement of the batch
  normalisation of column j; and the first region's edge layer is the edge layer of the taken node rows and the edge
  attributes.
-/
import proofs.«400937_j23630910063281_1_alg».proof.Proof.KChain
import proofs.«400937_j23630910063281_1_alg».proof.Proof.KChainB
import proofs.«400937_j23630910063281_1_alg».proof.Proof.KHost
import proofs.«400937_j23630910063281_1_alg».proof.Proof.Region0
import proofs.«400937_j23630910063281_1_alg».proof.Proof.Region1
import proofs.«400937_j23630910063281_1_alg».proof.Proof.Region2
import proofs.«400937_j23630910063281_1_alg».proof.Proof.Spec

set_option maxRecDepth 16384

noncomputable section

namespace Cert.KernelIdeal.Value

open Cert.KernelIdeal Cert.KernelIdeal.Gen Cert.KernelIdeal.KTerms Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The nine argument arrays at launch. -/
abbrev a0 : FVec Ideal S50000x4 .f32 := m ((c.tc : Thread nD τ).loc main_arg0)
abbrev a1 : IVec S2x800000 32 := m ((c.tc : Thread nD τ).loc main_arg1)
abbrev a2 : FVec Ideal S800000x84 .f32 := m ((c.tc : Thread nD τ).loc main_arg2)
abbrev a3 : FVec Ideal S88x128 .f32 := m ((c.tc : Thread nD τ).loc main_arg3)
abbrev a4 : FVec Ideal S128 .f32 := m ((c.tc : Thread nD τ).loc main_arg4)
abbrev a5 : FVec Ideal S128 .f32 := m ((c.tc : Thread nD τ).loc main_arg5)
abbrev a6 : FVec Ideal S128 .f32 := m ((c.tc : Thread nD τ).loc main_arg6)
abbrev a7 : FVec Ideal S132x64 .f32 := m ((c.tc : Thread nD τ).loc main_arg7)
abbrev a8 : FVec Ideal S64 .f32 := m ((c.tc : Thread nD τ).loc main_arg8)

/-- The edge layer over the taken node rows. -/
def HK (e : Fin 800000) (j : Fin 128) : EReal :=
  EdgeBn.lin (taken (F := Ideal) (a0 m c) (a1 m c)) (a2 m c) (a3 m c) (fun j => a4 m c (ix1 j)) e j

/-- The first region's edge layer, at its entry contents, is that. -/
theorem region0_H (e : Fin 800000) (j : Fin 128) : R0.H (V3 m ρ) c e j = HK m c e j := by
  unfold R0.H HK
  have e4 : R0.inG (V3 m ρ) c = taken (F := Ideal) (a0 m c) (a1 m c) := Chain.v3_v4 m ρ c
  have e2 : R0.inA (V3 m ρ) c = a2 m c := Chain.v3_arg2 m ρ c
  have e3 : R0.inW (V3 m ρ) c = a3 m c := Chain.v3_arg3 m ρ c
  have e5 : (fun j : Fin 128 => R0.inB (V3 m ρ) c (ix2 0 j)) = fun j => a4 m c (ix1 j) := by
    funext j
    have : R0.inB (V3 m ρ) c = shapeCast S1x128 (a4 m c) Facts₀.shapeCasts_S128_S1x128 := Chain.v3_v5 m ρ c
    rw [this]
    exact KHost.row128_apply (a4 m c) j
  rw [e4, e2, e3, e5]

/-- The second region's output, entry by entry: the kernel's arrangement of the normalisation. -/
theorem normalized (e : Fin 800000) (j : Fin 128) :
    R1.out (V5 m ρ) c (ix2 e j)
      = EdgeBn.normK (fun e' => HK m c e' j) (a5 m c (ix1 j)) (a6 m c (ix1 j)) e := by
  rw [R1.arr3]
  have hH : R1.inH (V5 m ρ) c (ix2 e j) = HK m c e j := by
    have : R1.inH (V5 m ρ) c = R0.outH (V3 m ρ) c := Chain.v5_v6_0 m ρ c
    rw [this, R0.arr4, region0_H]
  have hS : R0.outS (V3 m ρ) c (ix2 0 j) = ∑ e' : Fin 800000, HK m c e' j := by
    rw [R0.arr5]; exact Finset.sum_congr rfl fun e' _ => region0_H m ρ c e' j
  have hSS : R0.outSS (V3 m ρ) c (ix2 0 j) = ∑ e' : Fin 800000, HK m c e' j * HK m c e' j := by
    rw [R0.arr6]; exact Finset.sum_congr rfl fun e' _ => by rw [region0_H]
  have hsc : R1.inScale (V5 m ρ) c (ix2 0 j) = EdgeBn.scaleK (fun e' => HK m c e' j) (a5 m c (ix1 j)) := by
    have : R1.inScale (V5 m ρ) c = scaleArr (F := Ideal) (R0.outS (V3 m ρ) c) (R0.outSS (V3 m ρ) c) (a5 m c) := Chain.v5_v21 m ρ c
    rw [this, KHost.scaleArr_apply, hS, hSS]
    rfl
  have hsh : R1.inShift (V5 m ρ) c (ix2 0 j) = EdgeBn.shiftK (fun e' => HK m c e' j) (a5 m c (ix1 j)) (a6 m c (ix1 j)) := by
    have : R1.inShift (V5 m ρ) c = shiftArr (F := Ideal) (R0.outS (V3 m ρ) c) (R0.outSS (V3 m ρ) c) (a5 m c) (a6 m c) := Chain.v5_v22 m ρ c
    rw [this, KHost.shiftArr_apply, hS, hSS]
    rfl
  rw [hH, hsc, hsh]
  rfl

/-- THE RESULT, entry by entry. -/
theorem result_apply (n : Fin 50000) (j : Fin 64) :
    (W10 m ρ c (Proc.devRef .tc main_v36) : S50000x64.Idx → EReal) (ix2 n j)
      = EdgeBn.mlp (a0 m c)
          (agg (F := Ideal) (EdgeBn.ofEntries fun e j => EdgeBn.normK (fun e' => HK m c e' j) (a5 m c (ix1 j)) (a6 m c (ix1 j)) e) (a1 m c))
          (a7 m c) (fun j => a8 m c (ix1 j)) n j := by
  have h36 : (W10 m ρ c (Proc.devRef .tc main_v36) : S50000x64.Idx → EReal) = R2.out (V9 m ρ) c := Chain.w10_v36 m ρ c
  rw [h36, R2.arr4]
  have e0 : R2.inX (V9 m ρ) c = a0 m c := Chain.v9_arg0 m ρ c
  have e7 : R2.inW (V9 m ρ) c = a7 m c := Chain.v9_arg7 m ρ c
  have e8 : (fun j : Fin 64 => R2.inB (V9 m ρ) c (ix2 0 j)) = fun j => a8 m c (ix1 j) := by
    funext j
    have : R2.inB (V9 m ρ) c = shapeCast S1x64 (a8 m c) Facts₀.shapeCasts_S64_S1x64 := Chain.v9_v35 m ρ c
    rw [this]
    exact KHost.row64_apply (a8 m c) j
  have eA : R2.inAgg (V9 m ρ) c
      = agg (F := Ideal) (EdgeBn.ofEntries fun e j => EdgeBn.normK (fun e' => HK m c e' j) (a5 m c (ix1 j)) (a6 m c (ix1 j)) e) (a1 m c) := by
    have : R2.inAgg (V9 m ρ) c = agg (F := Ideal) (R1.out (V5 m ρ) c) (a1 m c) := Chain.v9_v34 m ρ c
    have hout : R1.out (V5 m ρ) c
        = EdgeBn.ofEntries fun e j => EdgeBn.normK (fun e' => HK m c e' j) (a5 m c (ix1 j)) (a6 m c (ix1 j)) e :=
      (EdgeBn.eq_ofEntries (R1.out (V5 m ρ) c)).trans
        (congrArg EdgeBn.ofEntries (funext fun e => funext fun j => normalized m ρ c e j))
    rw [this, hout]
  rw [e0, e7, e8, eA]

end Cert.KernelIdeal.Value

end
-- ==== Proof.RefValue.lean ====
/-
  The reference's result, entry by entry.

  The reference gathers the node rows at the (wrapped) column indices, joins them with the edge attributes, applies the
  edge layer, normalises every feature column over all edges by its mean and centred variance, scales and shifts by the
  two parameter vectors, takes the scatter-mean onto the row nodes, joins the node table with it and applies the node
  layer. Read one operation at a time, its result at (n, j) is the node layer of row n of [node table | scatter-mean of
  the normalised edge layer].
-/
import proofs.«400937_j23630910063281_1_alg».proof.Proof.Gen.ReferenceIdeal.Read
import proofs.«400937_j23630910063281_1_alg».proof.Proof.KTerms
import proofs.«400937_j23630910063281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read Idealize.ShloMosaic Idealize.ShloMosaic.ValueIdx
open Cert.KernelIdeal.KTerms (agg gathered)

variable (x0 : FVec Ideal S50000x4 .f32) (x1 : IVec S2x800000 32) (x2 : FVec Ideal S800000x84 .f32)
  (x3 : FVec Ideal S88x128 .f32) (x4 x5 x6 : FVec Ideal S128 .f32) (x7 : FVec Ideal S132x64 .f32) (x8 : FVec Ideal S64 .f32)

/-- The gathered rows are the plain gather at the wrapped indices (the two programs' dimension records are one). -/
theorem v10_eq : val_main_v10 (F := Ideal) x0 x1 = gathered (F := Ideal) x0 x1 := by
  have hcol : val_main_v9 (F := Ideal) x1 = Cert.KernelIdeal.KTerms.wrapped x1 := by
    unfold val_main_v9 val_main_v8 val_main_v7 val_main_v6 val_main_v5 val_main_v4 val_main_v3 val_main_v2 val_main_c
      val_main_c_0 Cert.KernelIdeal.KTerms.wrapped Cert.KernelIdeal.KTerms.col
    rfl
  unfold val_main_v10 Cert.KernelIdeal.KTerms.gathered
  rw [hcol]
  rfl

/-- The joined edge features, entry by entry: the gathered columns, then the edge attributes. -/
private theorem v11_apply (e : Fin 800000) (k : Fin 88) :
    val_main_v11 (F := Ideal) x0 x1 x2 (ix2 e k) = EdgeBn.feat88 (gathered (F := Ideal) x0 x1) x2 e k := by
  unfold val_main_v11 EdgeBn.feat88
  rw [v10_eq]
  split
  · next h =>
    exact concatenate_pair_apply_left (t := S800000x88) (s₁ := S800000x4) (s₂ := S800000x84) 1 _ _ _
      (ix2 e k) rfl (ix2 e ⟨k.val, h⟩) (fun b => by match b with | ⟨0, _⟩ => rfl | ⟨1, _⟩ => rfl)
  · next h =>
    exact concatenate_pair_apply_right (t := S800000x88) (s₁ := S800000x4) (s₂ := S800000x84) 1 _ _ _
      (ix2 e k) rfl rfl (ix2 e ⟨k.val - 4, by have := k.isLt; omega⟩)
      (fun b hb => by match b, hb with | ⟨0, _⟩, _ => rfl | ⟨1, _⟩, hb => exact absurd rfl hb)
      (by show (k.val - 4) + 4 = k.val; omega)

/-- The edge layer, entry by entry. -/
theorem v15_apply (e : Fin 800000) (j : Fin 128) :
    val_main_v15 (F := Ideal) x0 x1 x2 x3 x4 (ix2 e j)
      = EdgeBn.lin (gathered (F := Ideal) x0 x1) x2 x3 (fun j => x4 (ix1 j)) e j := by
  have hl : ∀ k : Fin 88, lidx_main_v12 (ix2 e j) k = ix2 e k := fun k =>
    funext fun a => Fin.ext (by match a with | ⟨0, _⟩ => rfl | ⟨1, _⟩ => rfl)
  have hr : ∀ k : Fin 88, ridx_main_v12 (ix2 e j) k = ix2 k j := fun k =>
    funext fun a => Fin.ext (by match a with | ⟨0, _⟩ => rfl | ⟨1, _⟩ => rfl)
  have hb : idx_main_v13 (idx_main_v14 (ix2 e j)) = ix1 j :=
    funext fun a => Fin.ext (by match a with | ⟨0, _⟩ => rfl)
  rw [val_main_v15_apply, val_main_v12_apply, val_main_v14_apply, val_main_v13_apply]
  simp only [hl, hr, hb, v11_apply]
  rfl

/-- The mean stage at feature j is the mean of column j of the edge layer (the sum starts from the zero word). -/
private theorem v18_apply (j : Fin 128) (h : Fin 800000 → EReal)
    (hh : ∀ e', val_main_v15 (F := Ideal) x0 x1 x2 x3 x4 (ix2 e' j) = h e') :
    val_main_v18 (F := Ideal) x0 x1 x2 x3 x4 (ix1 j) = EdgeBn.mean h := by
  have h16 : ∀ k : Fin 800000, idx_main_v16 (ix1 j) k = ix2 k j := fun k =>
    funext fun a => Fin.ext (by match a with | ⟨0, _⟩ => rfl | ⟨1, _⟩ => rfl)
  rw [val_main_v18_apply, val_main_v16_apply, val_main_v17_apply, val_main_cst_1_apply, val_main_cst_apply]
  simp only [h16, hh, Ideal.hostDivf_def, Ideal.ofBits_def, Ideal.ofBits_zero_f32, zero_add]
  rfl

/-- The variance stage at feature j is the mean of the squared deviations of column j from its mean. -/
private theorem v25_apply (j : Fin 128) (h : Fin 800000 → EReal)
    (hh : ∀ e', val_main_v15 (F := Ideal) x0 x1 x2 x3 x4 (ix2 e' j) = h e') :
    val_main_v25 (F := Ideal) x0 x1 x2 x3 x4 (ix1 j) = EdgeBn.varR h := by
  have h23 : ∀ k : Fin 800000, idx_main_v23 (ix1 j) k = ix2 k j := fun k =>
    funext fun a => Fin.ext (by match a with | ⟨0, _⟩ => rfl | ⟨1, _⟩ => rfl)
  have h19 : ∀ k : Fin 800000, idx_main_v19 (idx_main_v20 (ix2 k j)) = ix1 j := fun k =>
    funext fun a => Fin.ext (by match a with | ⟨0, _⟩ => rfl)
  rw [val_main_v25_apply, val_main_v23_apply, val_main_v24_apply, val_main_cst_3_apply, val_main_cst_2_apply]
  simp only [h23, val_main_v22_apply, val_main_v21_apply, val_main_v20_apply, val_main_v19_apply, h19, hh,
    v18_apply x0 x1 x2 x3 x4 j h hh, Ideal.hostDivf_def, Ideal.ofBits_def, Ideal.ofBits_zero_f32, zero_add,
    Ideal.mulf_def, Ideal.subf_def]
  rfl

/-- The normalised entry, for any name of column j of the edge layer. -/
private theorem v40_of_col (e : Fin 800000) (j : Fin 128) (h : Fin 800000 → EReal)
    (hh : ∀ e', val_main_v15 (F := Ideal) x0 x1 x2 x3 x4 (ix2 e' j) = h e') :
    val_main_v40 (F := Ideal) x0 x1 x2 x3 x4 x5 x6 (ix2 e j) = EdgeBn.normR h (x5 (ix1 j)) (x6 (ix1 j)) e := by
  have h27 : idx_main_v26 (idx_main_v27 (ix2 e j)) = ix1 j :=
    funext fun a => Fin.ext (by match a with | ⟨0, _⟩ => rfl)
  have h33 : idx_main_v32 (idx_main_v33 (ix2 e j)) = ix1 j :=
    funext fun a => Fin.ext (by match a with | ⟨0, _⟩ => rfl)
  have h36 : idx_main_v35 (idx_main_v36 (ix2 e j)) = ix1 j :=
    funext fun a => Fin.ext (by match a with | ⟨0, _⟩ => rfl)
  have h39 : idx_main_v38 (idx_main_v39 (ix2 e j)) = ix1 j :=
    funext fun a => Fin.ext (by match a with | ⟨0, _⟩ => rfl)
  simp only [val_main_v40_apply, val_main_v37_apply, val_main_v39_apply, val_main_v38_apply, val_main_v34_apply,
    val_main_v36_apply, val_main_v35_apply, val_main_v28_apply, val_main_v33_apply, val_main_v32_apply,
    val_main_v31_apply, val_main_v30_apply, val_main_v29_apply, val_main_cst_4_apply, val_main_v27_apply,
    val_main_v26_apply, h27, h33, h36, h39, hh, v18_apply x0 x1 x2 x3 x4 j h hh, v25_apply x0 x1 x2 x3 x4 j h hh,
    Ideal.addf_def, Ideal.mulf_def, Ideal.subf_def, Ideal.hostUnary_rsqrt_def, Ideal.ofBits_def]
  rfl

/-- The normalised edge layer, entry by entry: the reference's arrangement of the batch normalisation. -/
theorem v40_apply (e : Fin 800000) (j : Fin 128) :
    val_main_v40 (F := Ideal) x0 x1 x2 x3 x4 x5 x6 (ix2 e j)
      = EdgeBn.normR (fun e' => EdgeBn.lin (gathered (F := Ideal) x0 x1) x2 x3 (fun j => x4 (ix1 j)) e' j)
          (x5 (ix1 j)) (x6 (ix1 j)) e :=
  v40_of_col x0 x1 x2 x3 x4 x5 x6 e j _ (fun e' => v15_apply x0 x1 x2 x3 x4 e' j)

/-- The scatter-mean stage is the scatter-mean of the normalised edge layer. -/
theorem v51_eq : val_main_v51 (F := Ideal) x0 x1 x2 x3 x4 x5 x6
    = agg (F := Ideal) (val_main_v40 (F := Ideal) x0 x1 x2 x3 x4 x5 x6) x1 := by
  have hrow : val_main_v1 (F := Ideal) x1 = Cert.KernelIdeal.KTerms.row x1 := by
    unfold val_main_v1 val_main_v0 Cert.KernelIdeal.KTerms.row
    rfl
  unfold val_main_v51 val_main_v50 val_main_v49 val_main_v48 val_main_v47 val_main_v46 val_main_v45 val_main_v44
    val_main_v43 val_main_v42 val_main_v41 val_main_call0_v1 val_main_call0_v0 val_main_cst_5 val_main_cst_6
    val_main_cst_7 val_main_cst_8 Cert.KernelIdeal.KTerms.agg
  rw [hrow]
  generalize val_main_v40 (F := Ideal) x0 x1 x2 x3 x4 x5 x6 = hn
  rfl

/-- The joined node features, entry by entry: the node table's columns, then the scatter-mean's. -/
private theorem v52_apply (n : Fin 50000) (k : Fin 132) :
    val_main_v52 (F := Ideal) x0 x1 x2 x3 x4 x5 x6 (ix2 n k)
      = EdgeBn.feat132 x0 (val_main_v51 (F := Ideal) x0 x1 x2 x3 x4 x5 x6) n k := by
  unfold val_main_v52 EdgeBn.feat132
  generalize val_main_v51 (F := Ideal) x0 x1 x2 x3 x4 x5 x6 = y
  split
  · next h =>
    exact concatenate_pair_apply_left (t := S50000x132) (s₁ := S50000x4) (s₂ := S50000x128) 1 _ _ _
      (ix2 n k) rfl (ix2 n ⟨k.val, h⟩) (fun b => by match b with | ⟨0, _⟩ => rfl | ⟨1, _⟩ => rfl)
  · next h =>
    exact concatenate_pair_apply_right (t := S50000x132) (s₁ := S50000x4) (s₂ := S50000x128) 1 _ _ _
      (ix2 n k) rfl rfl (ix2 n ⟨k.val - 4, by have := k.isLt; omega⟩)
      (fun b hb => by match b, hb with | ⟨0, _⟩, _ => rfl | ⟨1, _⟩, hb => exact absurd rfl hb)
      (by show (k.val - 4) + 4 = k.val; omega)

/-- The result, entry by entry: the node layer of row n of [x0 | scatter-mean]. -/
theorem v57_apply (n : Fin 50000) (j : Fin 64) :
    val_main_v57 (F := Ideal) x0 x1 x2 x3 x4 x5 x6 x7 x8 (ix2 n j)
      = EdgeBn.mlp x0 (val_main_v51 (F := Ideal) x0 x1 x2 x3 x4 x5 x6) x7 (fun j => x8 (ix1 j)) n j := by
  have hl : ∀ k : Fin 132, lidx_main_v53 (ix2 n j) k = ix2 n k := fun k =>
    funext fun a => Fin.ext (by match a with | ⟨0, _⟩ => rfl | ⟨1, _⟩ => rfl)
  have hr : ∀ k : Fin 132, ridx_main_v53 (ix2 n j) k = ix2 k j := fun k =>
    funext fun a => Fin.ext (by match a with | ⟨0, _⟩ => rfl | ⟨1, _⟩ => rfl)
  have hb : idx_main_v54 (idx_main_v55 (ix2 n j)) = ix1 j :=
    funext fun a => Fin.ext (by match a with | ⟨0, _⟩ => rfl)
  rw [val_main_v57_apply, val_main_v56_apply, val_main_v53_apply, val_main_v55_apply, val_main_v54_apply,
    val_main_call1_v0_apply, val_main_call1_cst_apply]
  simp only [hl, hr, hb, v52_apply, Ideal.maximumf_def, Ideal.addf_def, Ideal.ofBits_def, Ideal.ofBits_zero_f32]
  rfl

end Cert.ReferenceIdeal.RefValue

end
-- ==== Proof.Take.lean ====
/-
  The gather of node rows by the edges' column indices.

  The kernel's program takes rows with a fill: an index below zero is wrapped by the table's 50000 rows, the wrapped
  index is tested against [0, 49999], and a row whose test fails is filled with a not-a-number. The reference gathers
  with the same wrapped indices and no test. When every index lies in [-50000, 50000) the wrapped index lies in
  [0, 49999], the test passes on every row, and the fill never shows: the two arrays are one.
-/
import proofs.«400937_j23630910063281_1_alg».proof.Proof.KTerms
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

set_option maxRecDepth 16384

noncomputable section

namespace Cert.KernelIdeal.Take

open Cert.KernelIdeal Cert.KernelIdeal.KTerms Idealize.ShloMosaic Idealize.ShloMosaic.ValueIdx
open Facts₀ Facts

/-- The column index of edge e is entry (1, e) of the edge index array. -/
theorem col_apply (a1 : IVec S2x800000 32) (e : Fin 800000) : col a1 (ix1 e) = a1 (ix2 1 e) := by
  unfold col
  -- the flat position of (0, e) in a one-row array is e
  rw [shapeCast_apply _ shapeCasts_S1x800000_S800000 (ix1 e) (ix2 0 e)
    (by rewrite [Shape.rowMajor_val_two, Shape.rowMajor_val_one]
        show 0 * 800000 + e.val = e.val; omega)]
  -- the slice starts at row 1, column 0
  exact extractStridedSlice_apply ![1, 0] a1 slices_S2x800000_S1x800000_1_0 (ix2 0 e) (ix2 1 e) (fun a => match a with
    | ⟨0, _⟩ => by show (1 : Nat) = 1 + 0; omega
    | ⟨1, _⟩ => by show e.val = 0 + e.val; omega)

/-- A word in [-50000, 50000), with 50000 added when it is below zero, lies in [0, 49999]. -/
private theorem wrap_word (w : BitVec 32) (hlo : -50000 ≤ w.toInt) (hhi : w.toInt < 50000) :
    (0#32).sle (if w.slt 0#32 then w + 50000#32 else w) = true ∧
      (if w.slt 0#32 then w + 50000#32 else w).sle 49999#32 = true := by
  have h0 : (0#32).toInt = 0 := by decide
  have h1 : (49999#32).toInt = 49999 := by decide
  have h2 : (50000#32).toInt = 50000 := by decide
  by_cases hneg : w.slt 0#32 = true
  · rw [if_pos hneg]
    have hlt : w.toInt < 0 := by
      have := (BitVec.slt_iff_toInt_lt).1 hneg
      rw [h0] at this; exact this
    have hadd : (w + 50000#32).toInt = w.toInt + 50000 := by
      rw [BitVec.toInt_add, h2]
      exact Int.bmod_eq_of_le_mul_two (by omega) (by omega)
    constructor
    · rw [BitVec.sle_iff_toInt_le, h0, hadd]; omega
    · rw [BitVec.sle_iff_toInt_le, h1, hadd]; omega
  · rw [if_neg hneg]
    have hge : 0 ≤ w.toInt := by
      have : ¬ w.toInt < (0#32).toInt := fun hc => hneg ((BitVec.slt_iff_toInt_lt).2 hc)
      rw [h0] at this; omega
    constructor
    · rw [BitVec.sle_iff_toInt_le, h0]; exact hge
    · rw [BitVec.sle_iff_toInt_le, h1]; omega

/-- The wrapped index of edge e, from the column index. -/
private theorem wrapped_apply (a1 : IVec S2x800000 32) (e : Fin 800000) (z : Fin 1) :
    wrapped a1 (ix2 e z) =
      (if (a1 (ix2 1 e)).slt 0#32 then a1 (ix2 1 e) + 50000#32 else a1 (ix2 1 e)) := by
  unfold wrapped
  rw [broadcastInDim_apply ![0] bcast_S800000_S800000x1_0 _ (ix2 e z) (ix1 e)
    (fun a => match a with
      | ⟨0, _⟩ => by
        show e.val = if (800000 : Nat) = 1 then 0 else e.val
        rw [if_neg (by omega)])]
  rw [select_apply]
  show Scalar.select (IntOp.cmpi .slt (col a1 (ix1 e)) 0#32) (IntOp.addi (col a1 (ix1 e)) 50000#32) (col a1 (ix1 e)) = _
  rw [col_apply]
  unfold Scalar.select IntOp.cmpi IntOp.addi
  show (if BitVec.ofBool ((a1 (ix2 1 e)).slt 0#32) = 1 then _ else _) = _
  cases hb : (a1 (ix2 1 e)).slt 0#32
  · rw [if_neg (by decide)]; rfl
  · rw [if_pos (by decide)]; rfl

/-- An and-fold that starts at 1 and meets only 1s ends at 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- With every column index in [-50000, 50000) the test passes on every edge. -/
theorem inRange_eq_one (a1 : IVec S2x800000 32)
    (h : ∀ e : Fin 800000, -50000 ≤ (a1 (ix2 1 e)).toInt ∧ (a1 (ix2 1 e)).toInt < 50000) (i : S800000.Idx) :
    inRange a1 i = 1#1 := by
  unfold inRange
  rw [Host.reduce_eq_foldl]
  show List.foldl _ 1#1 _ = 1#1
  refine foldl_andi_one _ _ (fun j _ => ?_)
  obtain ⟨e, z, rfl⟩ : ∃ (e : Fin 800000) (z : Fin 1), j = ix2 e z := ⟨j 0, j 1, eq_ix2 j⟩
  obtain ⟨hge, hle⟩ := wrap_word (a1 (ix2 1 e)) (h e).1 (h e).2
  show IntOp.andi (IntOp.cmpi .sge (wrapped a1 (ix2 e z)) _) (IntOp.cmpi .sle (wrapped a1 (ix2 e z)) _) = 1#1
  rw [wrapped_apply]
  have c0 : broadcastInDim S800000x1 ![] bcast_S_S800000x1 (constantI S_ 32 0#32) (ix2 e z) = 0#32 := by
    rw [broadcastInDim_apply ![] bcast_S_S800000x1 _ (ix2 e z) ix0 (fun a => a.elim0)]; rfl
  have c1 : broadcastInDim S800000x1 ![0, 1] bcast_S1x1_S800000x1_0_1
      (broadcastInDim S1x1 ![1] bcast_S1_S1x1_1 (constantI S1 32 49999#32)) (ix2 e z) = 49999#32 := by
    rw [broadcastInDim_apply ![0, 1] bcast_S1x1_S800000x1_0_1 _ (ix2 e z) (ix2 0 0)
      (fun a => match a with
        | ⟨0, _⟩ => by show (0 : Nat) = if (1 : Nat) = 1 then 0 else _; rw [if_pos rfl]
        | ⟨1, _⟩ => by show (0 : Nat) = if (1 : Nat) = 1 then 0 else _; rw [if_pos rfl])]
    rw [broadcastInDim_apply ![1] bcast_S1_S1x1_1 _ (ix2 0 0) (ix1 0)
      (fun a => match a with
        | ⟨0, _⟩ => by show (0 : Nat) = if (1 : Nat) = 1 then 0 else _; rw [if_pos rfl])]
    rfl
  rw [c0, c1]
  unfold IntOp.cmpi IntOp.andi
  show BitVec.ofBool (BitVec.sle 0#32 _) &&& BitVec.ofBool (BitVec.sle _ 49999#32) = 1#1
  rw [hge, hle]; rfl

/-- So the take is the plain gather. -/
theorem taken_eq_gathered {F : FTy → Type} [FloatOps F] (a0 : FVec F S50000x4 .f32) (a1 : IVec S2x800000 32)
    (h : ∀ e : Fin 800000, -50000 ≤ (a1 (ix2 1 e)).toInt ∧ (a1 (ix2 1 e)).toInt < 50000) :
    taken a0 a1 = gathered a0 a1 := by
  funext i
  obtain ⟨p, q, rfl⟩ : ∃ (p : Fin 800000) (q : Fin 4), i = ix2 p q := ⟨i 0, i 1, eq_ix2 i⟩
  unfold taken
  rw [select_apply]
  rw [broadcastInDim_apply ![0] bcast_S800000_S800000x4_0 (inRange a1) (ix2 p q) (ix1 p)
    (fun a => match a with
      | ⟨0, _⟩ => by
        show p.val = if (800000 : Nat) = 1 then 0 else p.val
        rw [if_neg (by omega)])]
  rw [inRange_eq_one a1 h]
  exact select_one _ _

end Cert.KernelIdeal.Take

end
-- ==== Proof.PreDecode.lean ====
/-
  What the precondition says, entry by entry.

  The precondition is one bit: the conjunction, over the eight float inputs, of "every |entry| is below +infinity",
  and of "every entry of row 1 of the edge index array is at least -50000 and below 50000". When that bit is set, every
  float input holds real numbers only, and every column index is an index of the node table's 50000 rows (NumPy's
  negative indices included).
-/
import proofs.«400937_j23630910063281_1_alg».proof.Pre_finite_inputs
import proofs.«400937_j23630910063281_1_alg».proof.Proof.Gen.Pre_finite_inputs
import proofs.«400937_j23630910063281_1_alg».proof.Proof.LibRealValued
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

set_option maxRecDepth 16384

noncomputable section

namespace Cert.Pre_finite_inputs.Decode

open Cert.Pre_finite_inputs Idealize.ShloMosaic Idealize.ShloMosaic.ValueIdx RealValued

instance : Subsingleton S_.Idx := ⟨fun a b => funext fun d => d.elim0⟩

/-- The f32 word with all exponent bits set and no fraction bit is +infinity. -/
private theorem inf_word : Ideal.ofBits .f32 0x7F800000#32 = (⊤ : EReal) := by
  simp [Ideal.ofBits, Ideal.ieee]

/-- One float input: when the conjunction over all entries of "|x| is below +infinity" is set, x holds real numbers only. -/
private theorem real_of_bit {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ix0 = 1#1) : IsReal x := by
  refine isReal_of_abs_lt_top fun i => ?_
  have hi := Host.reduce_andi_all _ _ hr h0 ix0 e i
  have hi' : BitVec.ofBool (decide (max (x i) (-(x i)) < Ideal.ofBits .f32 0x7F800000#32)) = 1#1 := hi
  rw [inf_word, StableHlo.Predicate.ofBool_eq_one_iff, decide_eq_true_eq] at hi'
  exact hi'

/-- Row 1 of the edge index array as a vector, at e, is the array's entry (1, e). -/
private theorem col_apply (a1 : IVec S2x800000 32) (e : Fin 800000) :
    shapeCast S800000 (extractStridedSlice S1x800000 ![1, 0] a1 Facts.slices_S2x800000_S1x800000_1_0)
      Facts.shapeCasts_S1x800000_S800000 (ix1 e) = a1 (ix2 1 e) := by
  rw [shapeCast_1a_a_apply]
  exact slice2_axis0_apply 1 a1 _ 0 e 1 rfl

/-- The index input: when the conjunction over all edges of "-50000 ≤ col and col < 50000" is set, each column index
    is in that range, read as a signed integer. -/
private theorem col_of_bit (a1 : IVec S2x800000 32)
    (h : Host.reduce IntOp.andi
          (andi
            (cmpi .sge (shapeCast S800000 (extractStridedSlice S1x800000 ![1, 0] a1 Facts.slices_S2x800000_S1x800000_1_0)
                Facts.shapeCasts_S1x800000_S800000)
              (broadcastInDim S800000 ![] Facts.bcast_S_S800000 (constantI S_ 32 4294917296#32)))
            (cmpi .slt (shapeCast S800000 (extractStridedSlice S1x800000 ![1, 0] a1 Facts.slices_S2x800000_S1x800000_1_0)
                Facts.shapeCasts_S1x800000_S800000)
              (broadcastInDim S800000 ![] Facts.bcast_S_S800000 (constantI S_ 32 50000#32))))
          (constantI S_ 1 1#1) Facts.reducesTo_S800000_S_d0 Facts.h_S_ ix0 = 1#1) (e : Fin 800000) :
    -50000 ≤ (a1 (ix2 1 e)).toInt ∧ (a1 (ix2 1 e)).toInt < 50000 := by
  have he := Host.reduce_andi_all _ _ Facts.reducesTo_S800000_S_d0 Facts.h_S_ ix0 h (ix1 e)
  have he' : IntOp.andi
      (IntOp.cmpi .sge (shapeCast S800000 (extractStridedSlice S1x800000 ![1, 0] a1 Facts.slices_S2x800000_S1x800000_1_0)
          Facts.shapeCasts_S1x800000_S800000 (ix1 e)) (4294917296#32))
      (IntOp.cmpi .slt (shapeCast S800000 (extractStridedSlice S1x800000 ![1, 0] a1 Facts.slices_S2x800000_S1x800000_1_0)
          Facts.shapeCasts_S1x800000_S800000 (ix1 e)) (50000#32)) = 1#1 := he
  rw [col_apply, IntOp.andi_eq_one, IntOp.cmpi_sge, IntOp.cmpi_slt] at he'
  have hlo : (4294917296#32 : BitVec 32).toInt = -50000 := by decide
  have hhi : (50000#32 : BitVec 32).toInt = 50000 := by decide
  rw [hlo, hhi] at he'
  exact he'

/-- The precondition's bit is set exactly when each float input is real-valued and each column index is in range
    (only this direction is used). -/
theorem of_pre (a0 : FVec Ideal S50000x4 .f32) (a1 : IVec S2x800000 32) (a2 : FVec Ideal S800000x84 .f32)
    (a3 : FVec Ideal S88x128 .f32) (a4 a5 a6 : FVec Ideal S128 .f32) (a7 : FVec Ideal S132x64 .f32) (a8 : FVec Ideal S64 .f32)
    (h : Cert.Pre_finite_inputs.fn (F := Ideal) a0 a1 a2 a3 a4 a5 a6 a7 a8 = fun _ => 1#1) :
    IsReal a0 ∧ IsReal a2 ∧ IsReal a3 ∧ IsReal a4 ∧ IsReal a5 ∧ IsReal a6 ∧ IsReal a7 ∧ IsReal a8
      ∧ ∀ e : Fin 800000, -50000 ≤ (a1 (ix2 1 e)).toInt ∧ (a1 (ix2 1 e)).toInt < 50000 := by
  have h0 := congrFun h ix0
  dsimp only [fn, fn_part1, fn_part2] at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨real_of_bit a0 _ _ _ h1, real_of_bit a2 _ _ _ h2, real_of_bit a3 _ _ _ h3, real_of_bit a4 _ _ _ h4,
    real_of_bit a5 _ _ _ h5, real_of_bit a6 _ _ _ h6, real_of_bit a7 _ _ _ h7, real_of_bit a8 _ _ _ h8,
    col_of_bit a1 h9⟩

end Cert.Pre_finite_inputs.Decode

end
-- ==== Proof.lean ====
/-
  The claim: the kernel's program and the reference compute one function of the nine inputs, over the extended reals,
  when every float input is finite and every gather index is an index of the node table.

  Both programs are an edge model of a graph network: each of the 800000 edges reads the 4 features of its column node,
  joins them with its own 84 attributes, and passes through a linear layer into 128 features; each feature column is
  batch-normalised over all edges (mean and variance over the 800000 rows, an epsilon under the inverse square root, a
  learnt scale and shift); the normalised rows are averaged onto their row nodes (a scattered sum over a scattered
  count, the count at least one); each of the 50000 nodes joins its own 4 features with that average and passes through a
  linear layer into 64 features, clamped at zero.

  The kernel's program runs three grid regions — the edge layer with two running column sums (of the layer and of its
  squares) over 50 blocks of 16000 edges; the affine normalisation over the same blocks; the node layer over 5 blocks of
  10000 nodes — among host operations. It differs from the reference in three ways, each of which is an identity over the
  reals. (1) The blocks: an entry of a matrix product depends on one row of the left operand, so the blocks of rows
  tile the whole product, and a sum over 800000 rows is the sum of the 50 block sums. (2) The variance: the kernel forms
  the mean of the squares less the squared mean and folds the normalisation into one scale and one shift per feature; the
  reference centres first. For real entries the two variances are one number and the two affine forms agree
  (`EdgeBn.normK_eq_normR`); the entries are real because the inputs are finite. (3) The gather: the kernel's take
  fills rows whose (wrapped) index falls outside the table; with every index in [-50000, 50000) no row is filled.
  Everything after the normalisation (the scatter-mean and the node layer) is the same function on both sides.
-/
import proofs.«400937_j23630910063281_1_alg».proof.Defs
import proofs.«400937_j23630910063281_1_alg».proof.Proof.Gen.Kernel
import proofs.«400937_j23630910063281_1_alg».proof.Proof.Gen.Kernel.Skeleton
import proofs.«400937_j23630910063281_1_alg».proof.Proof.Gen.Kernel.Launch
import proofs.«400937_j23630910063281_1_alg».proof.Proof.Gen.Kernel.Points
import proofs.«400937_j23630910063281_1_alg».proof.Proof.Gen.Kernel.Frame
import proofs.«400937_j23630910063281_1_alg».proof.Proof.Gen.KernelIdeal
import proofs.«400937_j23630910063281_1_alg».proof.Proof.Gen.KernelIdeal.Skeleton
import proofs.«400937_j23630910063281_1_alg».proof.Proof.Gen.KernelIdeal.Launch
import proofs.«400937_j23630910063281_1_alg».proof.Proof.Gen.KernelIdeal.Points
import proofs.«400937_j23630910063281_1_alg».proof.Proof.Gen.KernelIdeal.Frame
import proofs.«400937_j23630910063281_1_alg».proof.Proof.Gen.ReferenceIdeal
import proofs.«400937_j23630910063281_1_alg».proof.Proof.Gen.ReferenceIdeal.Run
import proofs.«400937_j23630910063281_1_alg».proof.Proof.Gen.ReferenceIdeal.Read
import proofs.«400937_j23630910063281_1_alg».proof.Proof.Gen.Pre_finite_inputs
import proofs.«400937_j23630910063281_1_alg».proof.Proof.KRun
import proofs.«400937_j23630910063281_1_alg».proof.Proof.KValue
import proofs.«400937_j23630910063281_1_alg».proof.Proof.RefValue
import proofs.«400937_j23630910063281_1_alg».proof.Proof.Take
import proofs.«400937_j23630910063281_1_alg».proof.Proof.PreDecode
import proofs.«400937_j23630910063281_1_alg».proof.Proof.Spec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx RealValued

/-! ## The two results are one function of the inputs -/

section Bridge

variable (a0 : FVec Ideal Cert.KernelIdeal.S50000x4 .f32) (a1 : IVec Cert.KernelIdeal.S2x800000 32)
  (a2 : FVec Ideal Cert.KernelIdeal.S800000x84 .f32) (a3 : FVec Ideal Cert.KernelIdeal.S88x128 .f32)
  (a4 a5 a6 : FVec Ideal Cert.KernelIdeal.S128 .f32) (a7 : FVec Ideal Cert.KernelIdeal.S132x64 .f32)
  (a8 : FVec Ideal Cert.KernelIdeal.S64 .f32)

/-- With real inputs and column indices in range, the kernel's normalised edge layer (over the taken rows, in the
    kernel's arrangement) is the reference's (over the gathered rows, in the reference's arrangement), as arrays. -/
theorem normalized_eq (h0 : IsReal a0) (h2 : IsReal a2) (h3 : IsReal a3) (h4 : IsReal a4) (h5 : IsReal a5) (h6 : IsReal a6)
    (hcol : ∀ e : Fin 800000, -50000 ≤ (a1 (ix2 1 e)).toInt ∧ (a1 (ix2 1 e)).toInt < 50000) :
    (EdgeBn.ofEntries fun e j => EdgeBn.normK
        (fun e' => EdgeBn.lin (Cert.KernelIdeal.KTerms.taken (F := Ideal) a0 a1) a2 a3 (fun j => a4 (ix1 j)) e' j)
        (a5 (ix1 j)) (a6 (ix1 j)) e)
      = Cert.ReferenceIdeal.Read.val_main_v40 (F := Ideal) a0 a1 a2 a3 a4 a5 a6 := by
  rw [EdgeBn.eq_ofEntries (Cert.ReferenceIdeal.Read.val_main_v40 (F := Ideal) a0 a1 a2 a3 a4 a5 a6)]
  refine congrArg EdgeBn.ofEntries (funext fun e => funext fun j => ?_)
  rw [Cert.ReferenceIdeal.RefValue.v40_apply, Cert.KernelIdeal.Take.taken_eq_gathered a0 a1 hcol]
  have hg : IsReal (Cert.KernelIdeal.KTerms.gathered (F := Ideal) a0 a1) := isReal_gather _ _ h0
  exact EdgeBn.normK_eq_normR _
    (fun e' => EdgeBn.lin_real hg h2 h3 (fun j => h4 (ix1 j)) e' j) (h5 (ix1 j)) (h6 (ix1 j)) e

end Bridge

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs run, and end with one result: entry (n, j) of either is the node layer of row n
    of [node table | scatter-mean of the normalised edge layer], and the two normalised edge layers are one array. -/
theorem algebraic : Cert.algebraic_KernelIdeal_ReferenceIdeal := by
  intro m ρ m' ρ' hpre hagree
  refine ⟨fun c => Cert.KernelIdeal.Gen.W10 m ρ c (Proc.devRef .tc Cert.KernelIdeal.main_v36),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, h5, h6, -, -, hcol⟩ := Cert.Pre_finite_inputs.Decode.of_pre _ _ _ _ _ _ _ _ _ (hpre c)
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  funext i
  obtain ⟨n, j, rfl⟩ : ∃ (n : Fin 50000) (j : Fin 64), i = ix2 n j := ⟨i 0, i 1, eq_ix2 i⟩
  refine (Cert.ReferenceIdeal.RefValue.v57_apply _ _ _ _ _ _ _ _ _ n j).trans ?_
  refine Eq.trans ?_ (Cert.KernelIdeal.Value.result_apply m ρ c n j).symm
  rw [Cert.ReferenceIdeal.RefValue.v51_eq, ← normalized_eq _ _ _ _ _ _ _ h0 h2 h3 h4 h5 h6 hcol]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
